-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part4 {F : FTy → Type} [FloatOps F] (main_arg15 : FVec F S384x128 .f32) (main_arg16 : FVec F S128 .f32) (main_v63 : IVec S_ 1) (main_v67 : IVec S_ 1) : IVec S_ 1 :=
  let main_v68 : IVec S_ 1 := andi main_v63 main_v67
  let main_v69 : FVec F S384x128 .f32 := Host.absf main_arg15
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S384x128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x600000 32) (main_arg2 : FVec F S600000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S6000x128 : Shape := ⟨2, ![6000, 128]⟩
abbrev S1x128 : Shape := ⟨2, ![1, 128]⟩
abbrev S5000x128 : Shape := ⟨2, ![5000, 128]⟩

abbrev nBuf : Space → Nat
  | .hbm => 77
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S1x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S1x128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S50000x128, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S6000x128, .f32⟩
  | .local _ .vmem, ⟨17, _⟩ => ⟨S6000x128, .f32⟩
  | .local _ .vmem, ⟨18, _⟩ => ⟨S6000x128, .f32⟩
  | .local _ .vmem, ⟨19, _⟩ => ⟨S6000x128, .f32⟩
  | .local _ .vmem, ⟨20, _⟩ => ⟨S6000x128, .f32⟩
  | .local _ .vmem, ⟨21, _⟩ => ⟨S6000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S6000x128, .f32⟩
  | .local _ .vmem, ⟨33, _⟩ => ⟨S6000x128, .f32⟩
  | .local _ .vmem, ⟨34, _⟩ => ⟨S6000x128, .f32⟩
  | .local _ .vmem, ⟨35, _⟩ => ⟨S6000x128, .f32⟩
  | .local _ .vmem, ⟨36, _⟩ => ⟨S6000x128, .f32⟩
  | .local _ .vmem, ⟨37, _⟩ => ⟨S6000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S128x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg7_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem4_0 : DmaSem sig := 55
abbrev cc6_sem5_0 : DmaSem sig := 56
abbrev cc6_sem6_0 : DmaSem sig := 57
abbrev cc6_sem7_0 : DmaSem sig := 58
abbrev cc6_sem7_1 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128x128_S128x128 : S128x128.ShapeCasts S128x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .f32 = 32 ∨ (Rect.block (s := S600000x128) S6000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x128.size a ≤ S600000x128.size a
  hwx2_2 : ∀ i : grid2.Coords, EltTy.bits .f32 = 32 ∨ (Rect.block (s := S600000x128) S6000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S600000x128.size a
  hwx4_0 : ∀ i : grid4.Coords, EltTy.bits .f32 = 32 ∨ (Rect.block (s := S600000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x128.size a ≤ S600000x128.size a
  hwx4_1 : ∀ i : grid4.Coords, EltTy.bits .f32 = 32 ∨ (Rect.block (s := S600000x128) S6000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x128.size a ≤ S600000x128.size a
  hwx4_2 : ∀ i : grid4.Coords, EltTy.bits .f32 = 32 ∨ (Rect.block (s := S600000x128) S6000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S6000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S6000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v31) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v38) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S6000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S6000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v31) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v43) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg13) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v44) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v45) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v17) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v45) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v46) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v47) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v48) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v49) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v50) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S50000x384 : Shape := ⟨2, ![50000, 384]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S600000x128, .f32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S600000x128, .f32⟩
  | .hbm, ⟨95, _⟩ => ⟨S_, .f32⟩
  | .hbm, ⟨96, _⟩ => ⟨S600000x128, .f32⟩
  | .hbm, ⟨97, _⟩ => ⟨S600000x128, .f32⟩
  | .hbm, ⟨98, _⟩ => ⟨S_, .f32⟩
  | .hbm, ⟨99, _⟩ => ⟨S50000x128, .f32⟩
  | .hbm, ⟨100, _⟩ => ⟨S600000x1, .i32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | .hbm, ⟨117, _⟩ => ⟨S50000x384, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | .hbm, ⟨122, _⟩ => ⟨S_, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_cst : Ref sig .tc := ⟨.hbm, 50, rfl⟩
abbrev main_call2_v0 : Ref sig .tc := ⟨.hbm, 51, rfl⟩
abbrev main_v26 : Ref sig .tc := ⟨.hbm, 52, rfl⟩
abbrev main_c_1 : Ref sig .tc := ⟨.hbm, 53, rfl⟩
abbrev main_v27 : Ref sig .tc := ⟨.hbm, 54, rfl⟩
abbrev main_v28 : Ref sig .tc := ⟨.hbm, 55, rfl⟩
abbrev main_c_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call3_cst : Ref sig .tc := ⟨.hbm, 63, rfl⟩
abbrev main_call3_v0 : Ref sig .tc := ⟨.hbm, 64, rfl⟩
abbrev main_v35 : Ref sig .tc := ⟨.hbm, 65, rfl⟩
abbrev main_cst_3 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_call4_cst : Ref sig .tc := ⟨.hbm, 75, rfl⟩
abbrev main_call4_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call5_cst : Ref sig .tc := ⟨.hbm, 82, rfl⟩
abbrev main_call5_v0 : Ref sig .tc := ⟨.hbm, 83, rfl⟩
abbrev main_v49 : Ref sig .tc := ⟨.hbm, 84, rfl⟩
abbrev main_c_4 : Ref sig .tc := ⟨.hbm, 85, rfl⟩
abbrev main_v50 : Ref sig .tc := ⟨.hbm, 86, rfl⟩
abbrev main_v51 : Ref sig .tc := ⟨.hbm, 87, rfl⟩
abbrev main_c_5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call6_cst : Ref sig .tc := ⟨.hbm, 95, rfl⟩
abbrev main_call6_v0 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call7_cst : Ref sig .tc := ⟨.hbm, 107, rfl⟩
abbrev main_call7_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call8_cst : Ref sig .tc := ⟨.hbm, 114, rfl⟩
abbrev main_call8_v0 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call9_cst : Ref sig .tc := ⟨.hbm, 122, rfl⟩
abbrev main_call9_v0 : Ref sig .tc := ⟨.hbm, 123, rfl⟩
abbrev main_v78 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x384_S384x128_S50000x128_1_0_0_1_n_n_wf : DotDims.WF S50000x384 S384x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Spec.lean ====
/-
  The network both programs compute, written once as functions of whole arrays on the extended reals.

  A layer takes node features x (N × D), an edge-feature array ea (E × D), and two maps between them that both
  programs spell identically and that are therefore kept abstract here: `gath` (node rows read at each edge's source)
  and `scat` (edge rows summed into each edge's target node).  With them

      msg  = max (gath x + ea) 0                                  (E × D)
      h    = x + scat msg                                         (N × D)
      x'   = max (max (h · W1 + b1) 0 · W2 + b2) 0                (N × D)

  and after three layers the three x' are joined by one more linear map whose weight has 3·D rows: the rows
  0 … D-1 meet the first layer's output, D … 2D-1 the second's, 2D … 3D-1 the third's,

      out  = max (x₁ · Wc[0:D] + x₂ · Wc[D:2D] + x₃ · Wc[2D:3D] + bc) 0 .

  Every product A · W is the textbook sum over the shared coordinate; sums are finite sums in the extended reals,
  where addition is commutative and associative, which is all the two programs' different groupings need.
-/
import Idealize.ShloMosaic.PureOps.Ideal
import Idealize.ShloMosaic.PureOps.Ideal.Laws
import Idealize.ShloMosaic.Lib.ValueIdx

noncomputable section

namespace Gine

open Idealize.ShloMosaic Idealize.ShloMosaic.ValueIdx

/-- An r × c array of extended reals. -/
abbrev Mat (r c : Nat) := FVec Ideal (⟨2, ![r, c]⟩ : Shape) .f32
/-- A length-n vector of extended reals. -/
abbrev Row (n : Nat) := FVec Ideal (⟨1, ![n]⟩ : Shape) .f32

/-- Entry by entry, the sum of two arrays clamped below at zero. -/
def msg {r c : Nat} (a b : Mat r c) : Mat r c := fun i => max (a i + b i) 0

/-- Entry by entry, the sum of two arrays. -/
def add {r c : Nat} (a b : Mat r c) : Mat r c := fun i => a i + b i

/-- A · W + b clamped below at zero: entry (p, q) is max (Σ_k A(p,k) · W(k,q) + b q) 0. -/
def lin {M K N : Nat} (A : Mat M K) (W : Mat K N) (b : Row N) : Mat M N :=
  fun i => max ((∑ k : Fin K, A (ix2 (i 0) k) * W (ix2 k (i 1))) + b (ix1 (i 1))) 0

theorem lin_apply {M K N : Nat} (A : Mat M K) (W : Mat K N) (b : Row N) (p : Fin M) (q : Fin N) :
    lin A W b (ix2 p q) = max ((∑ k : Fin K, A (ix2 p k) * W (ix2 k q)) + b (ix1 q)) 0 := rfl

/-- The two-layer perceptron applied to x + agg. -/
def mlp {M D : Nat} (x agg : Mat M D) (W1 : Mat D D) (b1 : Row D) (W2 : Mat D D) (b2 : Row D) : Mat M D :=
  lin (lin (add x agg) W1 b1) W2 b2

/-- A 1 × n array read as a length-n vector. -/
def rowOf {n : Nat} (b : Mat 1 n) : Row n := fun j => b (ix2 (0 : Fin 1) (j 0))

/-- The n consecutive rows of W that start at row `off`. -/
def rows {R C : Nat} (off n : Nat) (h : off + n ≤ R) (W : Mat R C) : Mat n C :=
  fun i => W (ix2 (⟨off + (i 0).val, by have hi : (i 0).val < n := (i 0).isLt; omega⟩ : Fin R) (i 1))

/-- x0 · w0 + x1 · w1 + x2 · w2 + bc clamped below at zero, the three products summed in this order. -/
def jk3 {M : Nat} (x0 x1 x2 : Mat M 128) (w0 w1 w2 : Mat 128 128) (bc : Row 128) : Mat M 128 :=
  fun i => max ((((∑ k : Fin 128, x0 (ix2 (i 0) k) * w0 (ix2 k (i 1)))
      + ∑ k : Fin 128, x1 (ix2 (i 0) k) * w1 (ix2 k (i 1)))
      + ∑ k : Fin 128, x2 (ix2 (i 0) k) * w2 (ix2 k (i 1)))
      + bc (ix1 (i 1))) 0

theorem jk3_apply {M : Nat} (x0 x1 x2 : Mat M 128) (w0 w1 w2 : Mat 128 128) (bc : Row 128) (p : Fin M) (q : Fin 128) :
    jk3 x0 x1 x2 w0 w1 w2 bc (ix2 p q) = max ((((∑ k : Fin 128, x0 (ix2 p k) * w0 (ix2 k q))
      + ∑ k : Fin 128, x1 (ix2 p k) * w1 (ix2 k q))
      + ∑ k : Fin 128, x2 (ix2 p k) * w2 (ix2 k q))
      + bc (ix1 q)) 0 := rfl

/-- The closing linear map over the three layers' outputs: the weight's rows 0…127 meet x0, 128…255 x1, 256…383 x2. -/
def jk {M : Nat} (x0 x1 x2 : Mat M 128) (Wc : Mat 384 128) (bc : Row 128) : Mat M 128 :=
  jk3 x0 x1 x2 (rows 0 128 (by omega) Wc) (rows 128 128 (by omega) Wc) (rows 256 128 (by omega) Wc) bc

/-- One layer: gather, add the edge features and clamp, scatter-sum, add to x, perceptron. -/
def layer {N E : Nat} (gath : Mat N 128 → Mat E 128) (scat : Mat E 128 → Mat N 128)
    (x : Mat N 128) (ea : Mat E 128) (W1 : Mat 128 128) (b1 : Row 128) (W2 : Mat 128 128) (b2 : Row 128) : Mat N 128 :=
  mlp x (scat (msg (gath x) ea)) W1 b1 W2 b2

/-- The whole network: three layers, then the closing linear map over their outputs. -/
def out {N E : Nat} (gath : Mat N 128 → Mat E 128) (scat : Mat E 128 → Mat N 128)
    (x : Mat N 128) (ea : Mat E 128)
    (W1a : Mat 128 128) (b1a : Row 128) (W2a : Mat 128 128) (b2a : Row 128)
    (W1b : Mat 128 128) (b1b : Row 128) (W2b : Mat 128 128) (b2b : Row 128)
    (W1c : Mat 128 128) (b1c : Row 128) (W2c : Mat 128 128) (b2c : Row 128)
    (Wc : Mat 384 128) (bc : Row 128) : Mat N 128 :=
  jk (layer gath scat x ea W1a b1a W2a b2a)
     (layer gath scat (layer gath scat x ea W1a b1a W2a b2a) ea W1b b1b W2b b2b)
     (layer gath scat (layer gath scat (layer gath scat x ea W1a b1a W2a b2a) ea W1b b1b W2b b2b) ea W1c b1c W2c b2c)
     Wc bc

end Gine

end
-- ==== Proof.KOps.lean ====
/-
  The two maps between node arrays and edge arrays that the network's layers use, as this program spells them from
  the integer input edge_index (2 × E): row 0 holds each edge's source node, row 1 its target node.
  `srcIdx` is row 0 with negative entries shifted up by the number of nodes, laid out as an E × 1 column;
  `dstIdx` is row 1 as an E × 1 column.  `gath` reads node rows at the source column; `scat` sums edge rows into a
  zero array at the target column.  Nothing here is opened by the proofs that use it: both programs apply the same
  two maps, and only that is needed.
-/
import proofs.«102026_j58007828300389_1_alg».proof.KernelIdeal
import proofs.«102026_j58007828300389_1_alg».proof.Proof.Gen.KernelIdeal
import proofs.«102026_j58007828300389_1_alg».proof.Proof.Spec

noncomputable section

namespace Cert.KernelIdeal.Val

open Cert.KernelIdeal Cert.KernelIdeal.Facts₀ Cert.KernelIdeal.Facts Idealize.ShloMosaic Idealize.ShloMosaic.TcCoe

/-- Each edge's source node, negative entries wrapped, as a column. -/
def srcIdx (ei : (⟨S2x600000, .i32⟩ : BufTy).Contents (Elt Ideal)) : (⟨S600000x1, .i32⟩ : BufTy).Contents (Elt Ideal) :=
  broadcastInDim S600000x1 ![0] bcast_S600000_S600000x1_0
    (select
      (cmpi .slt (shapeCast _ (extractStridedSlice S1x600000 ![0, 0] ei slices_S2x600000_S1x600000_0_0) shapeCasts_S1x600000_S600000)
        (broadcastInDim S600000 ![] bcast_S_S600000 (constantI S_ 32 0#32)))
      (addi (shapeCast _ (extractStridedSlice S1x600000 ![0, 0] ei slices_S2x600000_S1x600000_0_0) shapeCasts_S1x600000_S600000)
        (broadcastInDim S600000 ![] bcast_S_S600000 (constantI S_ 32 50000#32)))
      (shapeCast _ (extractStridedSlice S1x600000 ![0, 0] ei slices_S2x600000_S1x600000_0_0) shapeCasts_S1x600000_S600000))

/-- Each edge's target node, as a column. -/
def dstIdx (ei : (⟨S2x600000, .i32⟩ : BufTy).Contents (Elt Ideal)) : (⟨S600000x1, .i32⟩ : BufTy).Contents (Elt Ideal) :=
  broadcastInDim S600000x1 ![0] bcast_S600000_S600000x1_0
    (shapeCast _ (extractStridedSlice S1x600000 ![1, 0] ei slices_S2x600000_S1x600000_1_0) shapeCasts_S1x600000_S600000)

/-- Node rows read at each edge's source. -/
def gath (ei : (⟨S2x600000, .i32⟩ : BufTy).Contents (Elt Ideal)) : Gine.Mat 50000 128 → Gine.Mat 600000 128 :=
  fun x => Host.gather gather_S50000x128_S600000x1_S600000x128_1_0_n_n_0_1_1128 x (srcIdx ei)

/-- Edge rows summed into each edge's target node, from zero. -/
def scat (ei : (⟨S2x600000, .i32⟩ : BufTy).Contents (Elt Ideal)) : Gine.Mat 600000 128 → Gine.Mat 50000 128 :=
  fun u => Host.scatterAdd (F := Ideal) scatter_S50000x128_S600000x1_S600000x128_1_0_0_1
    (broadcastInDim S50000x128 ![] bcast_S_S50000x128 (constant S_ .f32 0x00000000#32)) (dstIdx ei) u

end Cert.KernelIdeal.Val

end
-- ==== Proof.KMsg0.lean ====
import proofs.«102026_j58007828300389_1_alg».proof.Proof.KernelIdealFrameP
import proofs.«102026_j58007828300389_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx

/-- The zero offsets of the whole-block rectangle, as the constant function. -/
theorem zeroOff0 : (![0, 0] : Fin 2 → Nat) = fun _ => 0 := funext fun a => by fin_cases a <;> rfl

/-- The body's payload at an index of the block: the two loaded entries added, then clamped below at zero. -/
theorem pay0_apply (x0 x1 : Vec Ideal S6000x128 .f32) (j : S6000x128.Idx) :
    k0_pay1 (F := Ideal) x0 x1 j = max (x0 j + x1 j) 0 := by
  unfold k0_pay1
  rw [shapeCast_self]
  show max (x0 j + x1 j) (Ideal.ofBits .f32 0x00000000#32) = _
  rw [Ideal.ofBits_zero_f32]

/-- The three windows move together: at grid point t each window's block index is (t, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The clamped sum read at an index, the two summands read at indices equal to it. -/
theorem msg_at0 (A0 A1 : Gine.Mat 600000 128) (i0 i1 i2 : S600000x128.Idx) (h0 : i0 = i2) (h1 : i1 = i2) :
    max (A0 i0 + A1 i1) 0 = Gine.msg A0 A1 i2 := by subst h0 h1; rfl

/-- The grid has 100 points. -/
theorem npts0 : cfg0.N = 100 := by decide

variable (V : (c : Dev nD) → (b : Ref sig .tc) → Buf (Elt Ideal) ((c : Thread nD τ).loc b))

/-- What grid point t writes back to the output array is block t of the clamped sum of the two input arrays. -/
theorem flushed0 (c : Dev nD) (t : Fin cfg0.N) :
    (dat0 (F := Ideal) V c).flushed 2 t
      = ((cfg0.win 2).blk t).view.read (Elt Ideal)
          (Gine.msg (r := 600000) (c := 128) (V c (Pipeline.arrRef spec0 0)) (V c (Pipeline.arrRef spec0 1))) := by
  show (cfg0.win 2).cut (grid0.coords t) ((dat0 V c).after 2 t) = _
  rw [after0_2]
  unfold out0_2
  rw [View.canon_unit_zero zeroOff0]
  simp only [View.ld_unit_zero (S := S6000x128) zeroOff0]
  obtain ⟨e0, e1, e2, e3, e4, e5⟩ := idx0 t
  funext j
  have hp := pay0_apply (iblk0 V c 0 t) (iblk0 V c 1 t) j
  refine hp.trans ?_
  have h0 : ((cfg0.win 0).blk t).view.emb j = ((cfg0.win 2).blk t).view.emb j := by
    funext a; apply Fin.ext
    match a with
    | ⟨0, _⟩ => show win0_0.index t (0 : Fin 2) * 6000 + 1 * (j 0).val = win0_2.index t (0 : Fin 2) * 6000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 6000 + 1 * (j 0).val = win0_2.index t (0 : Fin 2) * 6000 + 1 * (j 0).val; omega
    | ⟨1, _⟩ => show win0_1.index t (1 : Fin 2) * 128 + 1 * (j 1).val = win0_2.index t (1 : Fin 2) * 128 + 1 * (j 1).val; omega
  exact msg_at0 _ _ _ _ _ h0 h1

/-- An index of the output array lies in point t's block iff each coordinate lies in the block's range on its axis. -/
theorem mem_blk0 (t : Fin cfg0.N) (i : S600000x128.Idx) :
    i ∈ ((cfg0.win 2).blk t).view.set ↔ ∀ a : Fin 2, win0_2.index t a * S6000x128.size a ≤ (i a).val ∧ (i a).val < win0_2.index t a * S6000x128.size a + S6000x128.size a := by
  show i ∈ ((View.whole main_v11).slice (win0_2.rect t)).set ↔ _
  rw [View.set_slice_whole, Rect.mem_set_unit]
  exact Iff.rfl

/-- The 100 blocks of 6000 rows tile the 600000 rows: row r lies in the block of point r / 6000. -/
theorem cover0 (i : S600000x128.Idx) :
    ∃ t : Fin cfg0.N, (cfg0.win 2).flush t = true ∧ i ∈ ((cfg0.win 2).blk t).view.set := by
  have hi0 : (i 0).val < 600000 := (i 0).isLt
  have hi1 : (i 1).val < 128 := (i 1).isLt
  let t : Fin cfg0.N := Fin.cast npts0.symm ⟨(i 0).val / 6000, by omega⟩
  have ht : t.val = (i 0).val / 6000 := rfl
  obtain ⟨e0, e1, e2, e3, e4, e5⟩ := idx0 t
  refine ⟨t, flush0_2 t, ?_⟩
  rw [mem_blk0]
  intro a
  match a with
  | ⟨0, _⟩ => show win0_2.index t (0 : Fin 2) * 6000 ≤ (i 0).val ∧ (i 0).val < win0_2.index t (0 : Fin 2) * 6000 + 6000; omega
  | ⟨1, _⟩ => show win0_2.index t (1 : Fin 2) * 128 ≤ (i 1).val ∧ (i 1).val < win0_2.index t (1 : Fin 2) * 128 + 128; omega

/-- Region 0's output array after its run, from any entry contents `V`: entry by entry the sum of its two input arrays
    clamped below at zero. -/
theorem region0 (c : Dev nD) :
    (dat0 (F := Ideal) V c).arrAt 2 cfg0.N
      = Gine.msg (r := 600000) (c := 128) (V c (Pipeline.arrRef spec0 0)) (V c (Pipeline.arrRef spec0 1)) :=
  (dat0 (F := Ideal) V c).arrAt_eq_of_cover 2 _ (fun t _ => flushed0 V c t) cover0

end Cert.KernelIdeal.Val

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.KMlpPay.lean ====
/-
  What one grid point of the perceptron kernel computes on its block, and why a row of the result depends only on the same
  row of the two summed inputs.

  The kernel's body is two copies of one pattern: a 5000 × 128 block times a 128 × 128 weight, accumulated into the zero
  array, plus a 1 × 128 bias row repeated down the 5000 rows, clamped below at zero.  On the extended reals the roundings
  to the 16-bit format in front of each product are the identity and the product into zero is the textbook sum, so the
  pattern read at the entry (p, q) is  max (Σ_k A(p,k) · W(k,q) + b(0,q)) 0 : the specification's `lin` on a 5000-row
  array.  Two of them in sequence on x + agg are the specification's `mlp` with 5000 rows.
-/
import proofs.«102026_j58007828300389_1_alg».proof.Proof.Gen.KernelIdeal.Skeleton
import proofs.«102026_j58007828300389_1_alg».proof.Proof.Spec
import proofs.«102026_j58007828300389_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open Idealize.ShloMosaic.LibPlainMatmul

/-- The kernel's dimension numbers are those of the plain product of a 5000 × 128 by a 128 × 128 matrix. -/
theorem dot_is_plain : dot_S5000x128_S128x128_S5000x128_1_0_0_1_n_n = DotDims.plain 5000 128 128 := rfl

/-- One linear step of the body at the entry (p, q): the product into zero is the sum over the shared coordinate, the bias
    row is read at column q whatever the row, and the clamp's constant is zero. -/
theorem lin_block_apply (A : FVec Ideal S5000x128 .bf16) (W : FVec Ideal S128x128 .bf16) (b : FVec Ideal S1x128 .f32)
    (p : Fin 5000) (q : Fin 128) :
    maximumf (addf (matmul dot_S5000x128_S128x128_S5000x128_1_0_0_1_n_n none A W (constant (F := Ideal) S5000x128 .f32 0x00000000#32))
        (broadcastTo S5000x128 (shapeCast S1x128 b shapeCasts_S1x128_S1x128) broadcasts_S1x128_S5000x128))
      (broadcast S5000x128 (Scalar.ofBits .f32 0x00000000#32)) (ix2 p q)
    = max ((∑ k : Fin 128, A (ix2 p k) * W (ix2 k q)) + b (ix2 (0 : Fin 1) q)) 0 := by
  rw [maximumf_apply, addf_apply, broadcast_apply, shapeCast_self, dot_is_plain,
    matmul_plain_zero_apply none A W p q, broadcastTo_1b_ab_apply b broadcasts_S1x128_S5000x128 p q]
  show max _ (Ideal.ofBits .f32 0x00000000#32) = _
  rw [Ideal.ofBits_zero_f32]

/-- The first perceptron kernel's stored value, over any loaded blocks, is the two-layer perceptron of a 5000-row array. -/
theorem pay1_eq (x0 x1 : Vec Ideal S5000x128 .f32) (w1 : Vec Ideal S128x128 .f32) (b1 : Vec Ideal S1x128 .f32)
    (w2 : Vec Ideal S128x128 .f32) (b2 : Vec Ideal S1x128 .f32) :
    k1_pay1 x0 x1 w1 b1 w2 b2
      = Gine.mlp (M := 5000) (D := 128) x0 x1 w1 (Gine.rowOf (n := 128) b1) w2 (Gine.rowOf (n := 128) b2) := by
  funext j
  obtain ⟨p, q, rfl⟩ : ∃ (p : Fin 5000) (q : Fin 128), j = ix2 p q := ⟨j 0, j 1, eq_ix2 j⟩
  unfold k1_pay1
  refine (lin_block_apply _ _ b2 p q).trans ?_
  show _ = max ((∑ k : Fin 128, Gine.lin (Gine.add x0 x1) w1 (Gine.rowOf (n := 128) b1) (ix2 p k) * w2 (ix2 k q)) + b2 (ix2 (0 : Fin 1) q)) 0
  refine congrArg (fun s => max (s + b2 (ix2 (0 : Fin 1) q)) 0) (Finset.sum_congr rfl fun k _ => ?_)
  refine congrArg (· * w2 (ix2 k q)) ?_
  refine (lin_block_apply _ _ b1 p k).trans ?_
  rw [shapeCast_self]
  rfl

/-- A row of the perceptron's result is a function of the same row of its two summed inputs: if row p of (x, agg) is row
    p' of (x', agg'), the results agree there, whatever the two arrays' heights. -/
theorem mlp_row_congr {M M' : Nat} (x agg : Gine.Mat M 128) (x' agg' : Gine.Mat M' 128) (W1 W2 : Gine.Mat 128 128)
    (b1 b2 : Gine.Row 128) (p : Fin M) (p' : Fin M') (hx : ∀ l : Fin 128, x (ix2 p l) = x' (ix2 p' l))
    (ha : ∀ l : Fin 128, agg (ix2 p l) = agg' (ix2 p' l)) (q : Fin 128) :
    Gine.mlp x agg W1 b1 W2 b2 (ix2 p q) = Gine.mlp x' agg' W1 b1 W2 b2 (ix2 p' q) := by
  unfold Gine.mlp
  rw [Gine.lin_apply, Gine.lin_apply]
  refine congrArg (fun s => max (s + b2 (ix1 q)) 0) (Finset.sum_congr rfl fun k _ => ?_)
  refine congrArg (· * W2 (ix2 k q)) ?_
  rw [Gine.lin_apply, Gine.lin_apply]
  refine congrArg (fun s => max (s + b1 (ix1 k)) 0) (Finset.sum_congr rfl fun l _ => ?_)
  show (x (ix2 p l) + agg (ix2 p l)) * _ = (x' (ix2 p' l) + agg' (ix2 p' l)) * _
  rw [hx l, ha l]

/-- The same with the weights and bias rows replaced by equal ones: the form a block of the kernel's run is compared to the
    whole arrays in. -/
theorem mlp_block_congr {M M' : Nat} (x agg : Gine.Mat M 128) (x' agg' : Gine.Mat M' 128) (W1 W1' W2 W2' : Gine.Mat 128 128)
    (b1 b1' b2 b2' : Gine.Row 128) (hW1 : W1 = W1') (hb1 : b1 = b1') (hW2 : W2 = W2') (hb2 : b2 = b2')
    (p : Fin M) (p' : Fin M') (hx : ∀ l : Fin 128, x (ix2 p l) = x' (ix2 p' l))
    (ha : ∀ l : Fin 128, agg (ix2 p l) = agg' (ix2 p' l)) (q : Fin 128) :
    Gine.mlp x agg W1 b1 W2 b2 (ix2 p q) = Gine.mlp x' agg' W1' b1' W2' b2' (ix2 p' q) := by
  subst hW1 hb1 hW2 hb2
  exact mlp_row_congr x agg x' agg' W1 W2 b1 b2 p p' hx ha q

end Cert.KernelIdeal.Val

end
-- ==== Proof.KMlp1.lean ====
/-
  Region 1 (the first perceptron kernel) from blocks to the whole array.

  The grid has ten points; point t works on rows t · 5000 … t · 5000 + 4999 of the two row-blocked inputs and of the output,
  and on the whole of the two weights and the two bias rows.  What the body stores is the perceptron of the loaded blocks
  (the payload lemma), a row of the perceptron reads only the same row of the two summed inputs, and the ten row blocks
  cover the 50000 rows, so the output array ends as the perceptron of the whole arrays.
-/
import proofs.«102026_j58007828300389_1_alg».proof.Proof.KernelIdealFrameP
import proofs.«102026_j58007828300389_1_alg».proof.Proof.Spec
import proofs.«102026_j58007828300389_1_alg».proof.Proof.KMlpPay
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, as the constant function. -/
theorem zero_off1 : (![0, 0] : Fin 2 → Nat) = fun _ => 0 := funext fun a => by fin_cases a <;> rfl

/-- Where each window's block sits at grid point t: the two row-blocked inputs and the output at block row t, the weights
    and the bias rows always at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 2's block is its whole array (the first weight): its one block starts at row 0, column 0. -/
theorem blk1_2 (c : Dev nD) (t : Fin cfg1.N) : iblk1 V c 2 t = V c (Pipeline.arrRef spec1 2) := by
  obtain ⟨-, -, -, -, e0, e1, -⟩ := idx_facts1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array (the first bias row). -/
theorem blk1_3 (c : Dev nD) (t : Fin cfg1.N) : iblk1 V c 3 t = V c (Pipeline.arrRef spec1 3) := by
  obtain ⟨-, -, -, -, -, -, e0, e1, -⟩ := idx_facts1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block is its whole array (the second weight). -/
theorem blk1_4 (c : Dev nD) (t : Fin cfg1.N) : iblk1 V c 4 t = V c (Pipeline.arrRef spec1 4) := by
  obtain ⟨-, -, -, -, -, -, -, -, e0, e1, -⟩ := idx_facts1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block is its whole array (the second bias row). -/
theorem blk1_5 (c : Dev nD) (t : Fin cfg1.N) : iblk1 V c 5 t = V c (Pipeline.arrRef spec1 5) := by
  obtain ⟨-, -, -, -, -, -, -, -, -, -, e0, e1, -⟩ := idx_facts1 t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Row p of window 0's block at point t is row t · 5000 + p of its array. -/
theorem blk1_0 (c : Dev nD) (t : Fin cfg1.N) (p : Fin 5000) (P : Fin 50000) (hP : P.val = t.val * 5000 + p.val) (l : Fin 128) :
    iblk1 V c 0 t (ix2 p l) = V c (Pipeline.arrRef spec1 0) (ix2 P l) := by
  obtain ⟨e0, e1, -⟩ := idx_facts1 t
  show V c (Pipeline.arrRef spec1 0) (((cfg1.win 0).blk t).view.emb (ix2 p l)) = V c (Pipeline.arrRef spec1 0) (ix2 P l)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * l.val = l.val; omega

/-- Row p of window 1's block at point t is row t · 5000 + p of its array. -/
theorem blk1_1 (c : Dev nD) (t : Fin cfg1.N) (p : Fin 5000) (P : Fin 50000) (hP : P.val = t.val * 5000 + p.val) (l : Fin 128) :
    iblk1 V c 1 t (ix2 p l) = V c (Pipeline.arrRef spec1 1) (ix2 P l) := by
  obtain ⟨-, -, e0, e1, -⟩ := idx_facts1 t
  show V c (Pipeline.arrRef spec1 1) (((cfg1.win 1).blk t).view.emb (ix2 p l)) = V c (Pipeline.arrRef spec1 1) (ix2 P l)
  refine congrArg _ (funext fun a => Fin.ext ?_)
  match a with
  | ⟨0, _⟩ => show win1_1.index t (0 : Fin 2) * 5000 + 1 * p.val = P.val; omega
  | ⟨1, _⟩ => show win1_1.index t (1 : Fin 2) * 128 + 1 * l.val = l.val; omega

/-- The entry (p, q) of the output's block at point t is the entry (t · 5000 + p, q) of its array. -/
theorem emb1_6 (t : Fin cfg1.N) (p : Fin 5000) (P : Fin 50000) (hP : P.val = t.val * 5000 + p.val) (q : Fin 128) :
    ((cfg1.win 6).blk t).view.emb (ix2 p q) = ix2 P q := by
  obtain ⟨-, -, -, -, -, -, -, -, -, -, -, -, e0, e1⟩ := idx_facts1 t
  refine funext fun a => Fin.ext ?_
  match a with
  | ⟨0, _⟩ => show win1_6.index t (0 : Fin 2) * 5000 + 1 * p.val = P.val; omega
  | ⟨1, _⟩ => show win1_6.index t (1 : Fin 2) * 128 + 1 * q.val = q.val; omega

/-- WHAT POINT t WRITES BACK is block t of the perceptron of the whole arrays: the body's stored value is the perceptron of
    the loaded blocks, and a row of the perceptron only reads the same row of the two summed inputs. -/
theorem flushed1_eq (c : Dev nD) (t : Fin cfg1.N) :
    (dat1 (F := Ideal) V c).flushed 6 t = ((cfg1.win 6).blk t).view.read (Elt Ideal)
      (Gine.mlp (M := 50000) (D := 128) (V c (Pipeline.arrRef spec1 0)) (V c (Pipeline.arrRef spec1 1))
          (V c (Pipeline.arrRef spec1 2)) (Gine.rowOf (n := 128) (V c (Pipeline.arrRef spec1 3)))
          (V c (Pipeline.arrRef spec1 4)) (Gine.rowOf (n := 128) (V c (Pipeline.arrRef spec1 5)))) := by
  show (cfg1.win 6).cut (grid1.coords t) ((dat1 V c).after 6 t) = _
  rw [after1_6]
  unfold out1_6
  rw [View.canon_unit_zero zero_off1]
  simp only [View.ld_unit_zero (S := S5000x128) zero_off1, View.ld_unit_zero (S := S128x128) zero_off1,
    View.ld_unit_zero (S := S1x128) zero_off1]
  rw [pay1_eq]
  have ht : t.val < 10 := lt_of_lt_of_eq t.isLt N_1
  funext j
  obtain ⟨p, q, rfl⟩ : ∃ (p : Fin 5000) (q : Fin 128), j = ix2 p q := ⟨j 0, j 1, eq_ix2 j⟩
  show Gine.mlp (M := 5000) (D := 128) (iblk1 V c 0 t) (iblk1 V c 1 t) (iblk1 V c 2 t) (Gine.rowOf (n := 128) (iblk1 V c 3 t))
      (iblk1 V c 4 t) (Gine.rowOf (n := 128) (iblk1 V c 5 t)) (ix2 p q)
    = Gine.mlp (M := 50000) (D := 128) (V c (Pipeline.arrRef spec1 0)) (V c (Pipeline.arrRef spec1 1))
          (V c (Pipeline.arrRef spec1 2)) (Gine.rowOf (n := 128) (V c (Pipeline.arrRef spec1 3)))
          (V c (Pipeline.arrRef spec1 4)) (Gine.rowOf (n := 128) (V c (Pipeline.arrRef spec1 5)))
        (((cfg1.win 6).blk t).view.emb (ix2 p q))
  rw [emb1_6 t p ⟨t.val * 5000 + p.val, by omega⟩ rfl q]
  exact mlp_block_congr (M := 5000) (M' := 50000) _ _ _ _ _ _ _ _ _ _ _ _ (blk1_2 V c t) (congrArg (Gine.rowOf (n := 128)) (blk1_3 V c t))
    (blk1_4 V c t) (congrArg (Gine.rowOf (n := 128)) (blk1_5 V c t)) p ⟨t.val * 5000 + p.val, by omega⟩
    (fun l => blk1_0 V c t p _ rfl l) (fun l => blk1_1 V c t p _ rfl l) q

/-- An index of the array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v17).slice (win1_6.rect t)).set ↔ _
  rw [View.set_slice_whole, Rect.mem_set_unit]
  exact Iff.rfl

/-- The ten blocks of 5000 rows cover the 50000 rows: row r lies in the block of point r / 5000. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_6 _, ?_⟩
  obtain ⟨-, -, -, -, -, -, -, -, -, -, -, -, e0, e1⟩ := idx_facts1 ⟨(i 0).val / 5000, hN⟩
  rw [mem_blk1]
  intro a
  match a with
  | ⟨0, _⟩ => show win1_6.index ⟨(i 0).val / 5000, hN⟩ (0 : Fin 2) * 5000 ≤ (i 0).val ∧ (i 0).val < win1_6.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win1_6.index ⟨(i 0).val / 5000, hN⟩ (1 : Fin 2) * 128 ≤ (i 1).val ∧ (i 1).val < win1_6.index ⟨(i 0).val / 5000, hN⟩ (1 : Fin 2) * 128 + 128; omega

/-- Region 1's output array after its run, from any entry contents `V`: the two-layer perceptron of the sum of its first
    two input arrays, with the weights and the 1 × 128 bias rows it is given. -/
theorem region1 (c : Dev nD) :
    (dat1 (F := Ideal) V c).arrAt 6 cfg1.N
      = Gine.mlp (M := 50000) (D := 128) (V c (Pipeline.arrRef spec1 0)) (V c (Pipeline.arrRef spec1 1))
          (V c (Pipeline.arrRef spec1 2)) (Gine.rowOf (n := 128) (V c (Pipeline.arrRef spec1 3)))
          (V c (Pipeline.arrRef spec1 4)) (Gine.rowOf (n := 128) (V c (Pipeline.arrRef spec1 5))) :=
  (dat1 (F := Ideal) V c).arrAt_eq_of_cover 6 _ (fun t _ => flushed1_eq V c t) (fun i => cover1 i)

end Cert.KernelIdeal.Val

end
-- ==== Proof.KMlp3.lean ====
/-
  Region 3 (the second perceptron kernel): what its body stores, and from blocks to the whole array.

  The body is the first perceptron kernel's with one more reshape of a block to its own shape, which changes nothing: its
  stored value is again the perceptron of the loaded blocks.  The grid has ten points; point t works on rows
  t · 5000 … t · 5000 + 4999 of the two row-blocked inputs and of the output, and on the whole of the two weights and the two
  bias rows.  A row of the perceptron reads only the same row of the two summed inputs, and the ten row blocks cover the
  50000 rows, so the output array ends as the perceptron of the whole arrays.
-/
import proofs.«102026_j58007828300389_1_alg».proof.Proof.KernelIdealFrameP
import proofs.«102026_j58007828300389_1_alg».proof.Proof.Spec
import proofs.«102026_j58007828300389_1_alg».proof.Proof.KMlpPay
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The second perceptron kernel's stored value, over any loaded blocks, is the two-layer perceptron of a 5000-row array
    (both inputs pass through a reshape to their own shape first, the identity). -/
theorem pay3_eq (x0 x1 : Vec Ideal S5000x128 .f32) (w1 : Vec Ideal S128x128 .f32) (b1 : Vec Ideal S1x128 .f32)
    (w2 : Vec Ideal S128x128 .f32) (b2 : Vec Ideal S1x128 .f32) :
    k3_pay1 x0 x1 w1 b1 w2 b2
      = Gine.mlp (M := 5000) (D := 128) x0 x1 w1 (Gine.rowOf (n := 128) b1) w2 (Gine.rowOf (n := 128) b2) := by
  funext j
  obtain ⟨p, q, rfl⟩ : ∃ (p : Fin 5000) (q : Fin 128), j = ix2 p q := ⟨j 0, j 1, eq_ix2 j⟩
  unfold k3_pay1
  refine (lin_block_apply _ _ b2 p q).trans ?_
  show _ = max ((∑ k : Fin 128, Gine.lin (Gine.add x0 x1) w1 (Gine.rowOf (n := 128) b1) (ix2 p k) * w2 (ix2 k q)) + b2 (ix2 (0 : Fin 1) q)) 0
  refine congrArg (fun s => max (s + b2 (ix2 (0 : Fin 1) q)) 0) (Finset.sum_congr rfl fun k _ => ?_)
  refine congrArg (· * w2 (ix2 k q)) ?_
  refine (lin_block_apply _ _ b1 p k).trans ?_
  rw [shapeCast_self, shapeCast_self]
  rfl

/-- The zero offsets of a whole-block access, as the constant function. -/
theorem zero_off3 : (![0, 0] : Fin 2 → Nat) = fun _ => 0 := funext fun a => by fin_cases a <;> rfl

/-- Where each window's block sits at grid point t: the two row-blocked inputs and the output at block row t, the weights
    and the bias rows always at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 2's block is its whole array (the first weight): its one block starts at row 0, column 0. -/
theorem blk3_2 (c : Dev nD) (t : Fin cfg3.N) : iblk3 V c 2 t = V c (Pipeline.arrRef spec3 2) := by
  obtain ⟨-, -, -, -, e0, e1, -⟩ := idx_facts3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 3's block is its whole array (the first bias row). -/
theorem blk3_3 (c : Dev nD) (t : Fin cfg3.N) : iblk3 V c 3 t = V c (Pipeline.arrRef spec3 3) := by
  obtain ⟨-, -, -, -, -, -, e0, e1, -⟩ := idx_facts3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block is its whole array (the second weight). -/
theorem blk3_4 (c : Dev nD) (t : Fin cfg3.N) : iblk3 V c 4 t = V c (Pipeline.arrRef spec3 4) := by
  obtain ⟨-, -, -, -, -, -, -, -, e0, e1, -⟩ := idx_facts3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5's block is its whole array (the second bias row). -/
theorem blk3_5 (c : Dev nD) (t : Fin cfg3.N) : iblk3 V c 5 t = V c (Pipeline.arrRef spec3 5) := by
  obtain ⟨-, -, -, -, -, -, -, -, -, -, e0, e1, -⟩ := idx_facts3 t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Row p of window 0's block at point t is row t · 5000 + p of its array. -/
theorem blk3_0 (c : Dev nD) (t : Fin cfg3.N) (p : Fin 5000) (P : Fin 50000) (hP : P.val = t.val * 5000 + p.val) (l : Fin 128) :
    iblk3 V c 0 t (ix2 p l) = V c (Pipeline.arrRef spec3 0) (ix2 P l) := by
  obtain ⟨e0, e1, -⟩ := idx_facts3 t
  show V c (Pipeline.arrRef spec3 0) (((cfg3.win 0).blk t).view.emb (ix2 p l)) = V c (Pipeline.arrRef spec3 0) (ix2 P l)
  refine congrArg _ (funext fun a => Fin.ext ?_)
  match a with
  | ⟨0, _⟩ => show win3_0.index t (0 : Fin 2) * 5000 + 1 * p.val = P.val; omega
  | ⟨1, _⟩ => show win3_0.index t (1 : Fin 2) * 128 + 1 * l.val = l.val; omega

/-- Row p of window 1's block at point t is row t · 5000 + p of its array. -/
theorem blk3_1 (c : Dev nD) (t : Fin cfg3.N) (p : Fin 5000) (P : Fin 50000) (hP : P.val = t.val * 5000 + p.val) (l : Fin 128) :
    iblk3 V c 1 t (ix2 p l) = V c (Pipeline.arrRef spec3 1) (ix2 P l) := by
  obtain ⟨-, -, e0, e1, -⟩ := idx_facts3 t
  show V c (Pipeline.arrRef spec3 1) (((cfg3.win 1).blk t).view.emb (ix2 p l)) = V c (Pipeline.arrRef spec3 1) (ix2 P l)
  refine congrArg _ (funext fun a => Fin.ext ?_)
  match a with
  | ⟨0, _⟩ => show win3_1.index t (0 : Fin 2) * 5000 + 1 * p.val = P.val; omega
  | ⟨1, _⟩ => show win3_1.index t (1 : Fin 2) * 128 + 1 * l.val = l.val; omega

/-- The entry (p, q) of the output's block at point t is the entry (t · 5000 + p, q) of its array. -/
theorem emb3_6 (t : Fin cfg3.N) (p : Fin 5000) (P : Fin 50000) (hP : P.val = t.val * 5000 + p.val) (q : Fin 128) :
    ((cfg3.win 6).blk t).view.emb (ix2 p q) = ix2 P q := by
  obtain ⟨-, -, -, -, -, -, -, -, -, -, -, -, e0, e1⟩ := idx_facts3 t
  refine funext fun a => Fin.ext ?_
  match a with
  | ⟨0, _⟩ => show win3_6.index t (0 : Fin 2) * 5000 + 1 * p.val = P.val; omega
  | ⟨1, _⟩ => show win3_6.index t (1 : Fin 2) * 128 + 1 * q.val = q.val; omega

/-- WHAT POINT t WRITES BACK is block t of the perceptron of the whole arrays: the body's stored value is the perceptron of
    the loaded blocks, and a row of the perceptron only reads the same row of the two summed inputs. -/
theorem flushed3_eq (c : Dev nD) (t : Fin cfg3.N) :
    (dat3 (F := Ideal) V c).flushed 6 t = ((cfg3.win 6).blk t).view.read (Elt Ideal)
      (Gine.mlp (M := 50000) (D := 128) (V c (Pipeline.arrRef spec3 0)) (V c (Pipeline.arrRef spec3 1))
          (V c (Pipeline.arrRef spec3 2)) (Gine.rowOf (n := 128) (V c (Pipeline.arrRef spec3 3)))
          (V c (Pipeline.arrRef spec3 4)) (Gine.rowOf (n := 128) (V c (Pipeline.arrRef spec3 5)))) := by
  show (cfg3.win 6).cut (grid3.coords t) ((dat3 V c).after 6 t) = _
  rw [after3_6]
  unfold out3_6
  rw [View.canon_unit_zero zero_off3]
  simp only [View.ld_unit_zero (S := S5000x128) zero_off3, View.ld_unit_zero (S := S128x128) zero_off3,
    View.ld_unit_zero (S := S1x128) zero_off3]
  rw [pay3_eq]
  have ht : t.val < 10 := lt_of_lt_of_eq t.isLt N_3
  funext j
  obtain ⟨p, q, rfl⟩ : ∃ (p : Fin 5000) (q : Fin 128), j = ix2 p q := ⟨j 0, j 1, eq_ix2 j⟩
  show Gine.mlp (M := 5000) (D := 128) (iblk3 V c 0 t) (iblk3 V c 1 t) (iblk3 V c 2 t) (Gine.rowOf (n := 128) (iblk3 V c 3 t))
      (iblk3 V c 4 t) (Gine.rowOf (n := 128) (iblk3 V c 5 t)) (ix2 p q)
    = Gine.mlp (M := 50000) (D := 128) (V c (Pipeline.arrRef spec3 0)) (V c (Pipeline.arrRef spec3 1))
          (V c (Pipeline.arrRef spec3 2)) (Gine.rowOf (n := 128) (V c (Pipeline.arrRef spec3 3)))
          (V c (Pipeline.arrRef spec3 4)) (Gine.rowOf (n := 128) (V c (Pipeline.arrRef spec3 5)))
        (((cfg3.win 6).blk t).view.emb (ix2 p q))
  rw [emb3_6 t p ⟨t.val * 5000 + p.val, by omega⟩ rfl q]
  exact mlp_block_congr (M := 5000) (M' := 50000) _ _ _ _ _ _ _ _ _ _ _ _ (blk3_2 V c t) (congrArg (Gine.rowOf (n := 128)) (blk3_3 V c t))
    (blk3_4 V c t) (congrArg (Gine.rowOf (n := 128)) (blk3_5 V c t)) p ⟨t.val * 5000 + p.val, by omega⟩
    (fun l => blk3_0 V c t p _ rfl l) (fun l => blk3_1 V c t p _ rfl l) q

/-- An index of the array is in point t's block iff each coordinate is in the block's range on its axis. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v31).slice (win3_6.rect t)).set ↔ _
  rw [View.set_slice_whole, Rect.mem_set_unit]
  exact Iff.rfl

/-- The ten blocks of 5000 rows cover the 50000 rows: row r lies in the block of point r / 5000. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : (i 0).val / 5000 < cfg3.N := by show _ < grid3.N; rw [N_3]; omega
  refine ⟨⟨(i 0).val / 5000, hN⟩, flush3_6 _, ?_⟩
  obtain ⟨-, -, -, -, -, -, -, -, -, -, -, -, e0, e1⟩ := idx_facts3 ⟨(i 0).val / 5000, hN⟩
  rw [mem_blk3]
  intro a
  match a with
  | ⟨0, _⟩ => show win3_6.index ⟨(i 0).val / 5000, hN⟩ (0 : Fin 2) * 5000 ≤ (i 0).val ∧ (i 0).val < win3_6.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win3_6.index ⟨(i 0).val / 5000, hN⟩ (1 : Fin 2) * 128 ≤ (i 1).val ∧ (i 1).val < win3_6.index ⟨(i 0).val / 5000, hN⟩ (1 : Fin 2) * 128 + 128; omega

/-- Region 3's output array after its run, from any entry contents `V`: the two-layer perceptron of the sum of its first
    two input arrays, with the weights and the 1 × 128 bias rows it is given. -/
theorem region3 (c : Dev nD) :
    (dat3 (F := Ideal) V c).arrAt 6 cfg3.N
      = Gine.mlp (M := 50000) (D := 128) (V c (Pipeline.arrRef spec3 0)) (V c (Pipeline.arrRef spec3 1))
          (V c (Pipeline.arrRef spec3 2)) (Gine.rowOf (n := 128) (V c (Pipeline.arrRef spec3 3)))
          (V c (Pipeline.arrRef spec3 4)) (Gine.rowOf (n := 128) (V c (Pipeline.arrRef spec3 5))) :=
  (dat3 (F := Ideal) V c).arrAt_eq_of_cover 6 _ (fun t _ => flushed3_eq V c t) (fun i => cover3 i)

end Cert.KernelIdeal.Val

end
-- ==== Proof.KJk6.lean ====
import proofs.«102026_j58007828300389_1_alg».proof.Proof.KernelIdealFrameP
import proofs.«102026_j58007828300389_1_alg».proof.Proof.Spec
import proofs.«102026_j58007828300389_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.LibPlainMatmul

/-! ## The body's payload at one entry of its block -/

/-- The printed dimension numbers are those of the plain product of a 5000×128 by a 128×128 matrix. -/
theorem dot6_eq : dot_S5000x128_S128x128_S5000x128_1_0_0_1_n_n = DotDims.plain 5000 128 128 := rfl

/-- One product of the body, accumulated into the zero splat, at the entry (p, q): the sum over the shared coordinate. -/
theorem mm6_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  rw [dot6_eq]
  exact matmul_plain_zero_apply none A B p q

/-- The 1×128 bias row repeated down the 5000 rows, at the entry (p, q): the row's entry q. -/
theorem bcast6_apply (b : FVec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) ?_
  intro a
  match a with
  | ⟨0, _⟩ => rfl
  | ⟨1, _⟩ => rfl

/-- The body's payload at the entry (p, q) of its block: the three products added in the body's order, the bias row
    added, the result clamped below at zero. Rounding an operand to the narrower format changes no extended real. -/
theorem k6_pay1_apply (x0 x1 x2 : Vec Ideal S5000x128 .f32) (w0 w1 w2 : Vec Ideal S128x128 .f32) (b : Vec Ideal S1x128 .f32)
    (p : Fin 5000) (q : Fin 128) :
    k6_pay1 (F := Ideal) x0 w0 x1 w1 x2 w2 b (ix2 p q)
      = max ((((∑ k : Fin 128, x0 (ix2 p k) * w0 (ix2 k q))
          + ∑ k : Fin 128, x1 (ix2 p k) * w1 (ix2 k q))
          + ∑ k : Fin 128, x2 (ix2 p k) * w2 (ix2 k q))
          + b (ix2 (0 : Fin 1) q)) 0 := by
  unfold k6_pay1
  simp only [shapeCast_self]
  rw [maximumf_apply, addf_apply, addf_apply, addf_apply, mm6_apply, mm6_apply, mm6_apply, bcast6_apply, broadcast_apply]
  refine (congrArg (max _) Ideal.ofBits_zero_f32).trans ?_
  rfl

/-! ## From the blocks to the array -/

variable (V : (c : Dev nD) → (b : Ref sig .tc) → Buf (Elt Ideal) ((c : Thread nD τ).loc b))

theorem zero_offsets6 : (![0, 0] : Fin 2 → Nat) = fun _ => 0 := funext fun a => by fin_cases a <;> rfl

/-- The whole output array the region leaves, as one function of the arrays it finds. -/
abbrev whole6 (c : Dev nD) : S50000x128.Idx → Elt Ideal .f32 :=
  Gine.jk3 (M := 50000) (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (Gine.rowOf (n := 128) (V c (Pipeline.arrRef spec6 6)))

/-- The printed index maps over the grid: at point t the three row-blocked inputs and the output are at block (t, 0),
    the weights and the bias row at block (0, 0). -/
theorem index_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- The points of the grid are ten. -/
theorem points6 (t : Fin cfg6.N) : t.val < 10 := by
  have h : cfg6.N = 10 := N_6
  have := t.isLt
  omega

/-- Row p of point t's block is row 5000·t + p of the array. -/
abbrev row6 (t : Fin cfg6.N) (p : Fin 5000) : Fin 50000 :=
  ⟨t.val * 5000 + p.val, by have := points6 t; have := p.isLt; omega⟩

/-- The first row-blocked input's block at point t, at (p, k): the array at (5000·t + p, k). -/
theorem iblk6_0_apply (c : Dev nD) (t : Fin cfg6.N) (p : Fin 5000) (k : Fin 128) :
    iblk6 V c 0 t (ix2 p k) = (V c (Pipeline.arrRef spec6 0) : S50000x128.Idx → Elt Ideal .f32) (ix2 (row6 t p) k) := by
  obtain ⟨e0, e1, -⟩ := index_facts6 t
  show V c (Pipeline.arrRef spec6 0) (((cfg6.win 0).blk t).view.emb (ix2 p k)) = _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * k.val = k.val; omega

/-- The second's. -/
theorem iblk6_1_apply (c : Dev nD) (t : Fin cfg6.N) (p : Fin 5000) (k : Fin 128) :
    iblk6 V c 1 t (ix2 p k) = (V c (Pipeline.arrRef spec6 1) : S50000x128.Idx → Elt Ideal .f32) (ix2 (row6 t p) k) := by
  obtain ⟨-, -, e0, e1, -⟩ := index_facts6 t
  show V c (Pipeline.arrRef spec6 1) (((cfg6.win 1).blk t).view.emb (ix2 p k)) = _
  refine congrArg _ (funext fun a => Fin.ext ?_)
  match a with
  | ⟨0, _⟩ => show win6_1.index t (0 : Fin 2) * 5000 + 1 * p.val = t.val * 5000 + p.val; omega
  | ⟨1, _⟩ => show win6_1.index t (1 : Fin 2) * 128 + 1 * k.val = k.val; omega

/-- The third's. -/
theorem iblk6_2_apply (c : Dev nD) (t : Fin cfg6.N) (p : Fin 5000) (k : Fin 128) :
    iblk6 V c 2 t (ix2 p k) = (V c (Pipeline.arrRef spec6 2) : S50000x128.Idx → Elt Ideal .f32) (ix2 (row6 t p) k) := by
  obtain ⟨-, -, -, -, e0, e1, -⟩ := index_facts6 t
  show V c (Pipeline.arrRef spec6 2) (((cfg6.win 2).blk t).view.emb (ix2 p k)) = _
  refine congrArg _ (funext fun a => Fin.ext ?_)
  match a with
  | ⟨0, _⟩ => show win6_2.index t (0 : Fin 2) * 5000 + 1 * p.val = t.val * 5000 + p.val; omega
  | ⟨1, _⟩ => show win6_2.index t (1 : Fin 2) * 128 + 1 * k.val = k.val; omega

/-- A weight's block at any point is the whole weight: at (k, q) the array at (k, q). -/
theorem iblk6_3_apply (c : Dev nD) (t : Fin cfg6.N) (k q : Fin 128) :
    iblk6 V c 3 t (ix2 k q) = (V c (Pipeline.arrRef spec6 3) : S128x128.Idx → Elt Ideal .f32) (ix2 k q) := by
  obtain ⟨-, -, -, -, -, -, e0, e1, -⟩ := index_facts6 t
  show V c (Pipeline.arrRef spec6 3) (((cfg6.win 3).blk t).view.emb (ix2 k q)) = _
  refine congrArg _ (funext fun a => Fin.ext ?_)
  match a with
  | ⟨0, _⟩ => show win6_3.index t (0 : Fin 2) * 128 + 1 * k.val = k.val; omega
  | ⟨1, _⟩ => show win6_3.index t (1 : Fin 2) * 128 + 1 * q.val = q.val; omega

theorem iblk6_4_apply (c : Dev nD) (t : Fin cfg6.N) (k q : Fin 128) :
    iblk6 V c 4 t (ix2 k q) = (V c (Pipeline.arrRef spec6 4) : S128x128.Idx → Elt Ideal .f32) (ix2 k q) := by
  obtain ⟨-, -, -, -, -, -, -, -, e0, e1, -⟩ := index_facts6 t
  show V c (Pipeline.arrRef spec6 4) (((cfg6.win 4).blk t).view.emb (ix2 k q)) = _
  refine congrArg _ (funext fun a => Fin.ext ?_)
  match a with
  | ⟨0, _⟩ => show win6_4.index t (0 : Fin 2) * 128 + 1 * k.val = k.val; omega
  | ⟨1, _⟩ => show win6_4.index t (1 : Fin 2) * 128 + 1 * q.val = q.val; omega

theorem iblk6_5_apply (c : Dev nD) (t : Fin cfg6.N) (k q : Fin 128) :
    iblk6 V c 5 t (ix2 k q) = (V c (Pipeline.arrRef spec6 5) : S128x128.Idx → Elt Ideal .f32) (ix2 k q) := by
  obtain ⟨-, -, -, -, -, -, -, -, -, -, e0, e1, -⟩ := index_facts6 t
  show V c (Pipeline.arrRef spec6 5) (((cfg6.win 5).blk t).view.emb (ix2 k q)) = _
  refine congrArg _ (funext fun a => Fin.ext ?_)
  match a with
  | ⟨0, _⟩ => show win6_5.index t (0 : Fin 2) * 128 + 1 * k.val = k.val; omega
  | ⟨1, _⟩ => show win6_5.index t (1 : Fin 2) * 128 + 1 * q.val = q.val; omega

/-- The bias row's block at any point is the whole 1×128 array: at (0, q) the row's entry q. -/
theorem iblk6_6_apply (c : Dev nD) (t : Fin cfg6.N) (q : Fin 128) :
    iblk6 V c 6 t (ix2 (0 : Fin 1) q) = Gine.rowOf (n := 128) (V c (Pipeline.arrRef spec6 6)) (ix1 q) := by
  obtain ⟨-, -, -, -, -, -, -, -, -, -, -, -, e0, e1, -⟩ := index_facts6 t
  show V c (Pipeline.arrRef spec6 6) (((cfg6.win 6).blk t).view.emb (ix2 (0 : Fin 1) q)) = V c (Pipeline.arrRef spec6 6) (ix2 (0 : Fin 1) q)
  refine congrArg _ (funext fun a => Fin.ext ?_)
  match a with
  | ⟨0, _⟩ => show win6_6.index t (0 : Fin 2) * 1 + 1 * 0 = 0; omega
  | ⟨1, _⟩ => show win6_6.index t (1 : Fin 2) * 128 + 1 * q.val = q.val; omega

/-- Entry (p, q) of the output's block at point t is entry (5000·t + p, q) of the array. -/
theorem oblk6_emb (t : Fin cfg6.N) (p : Fin 5000) (q : Fin 128) :
    (((cfg6.win 7).blk t).view.emb (ix2 p q) : S50000x128.Idx) = ix2 (row6 t p) q := by
  obtain ⟨-, -, -, -, -, -, -, -, -, -, -, -, -, -, e0, e1⟩ := index_facts6 t
  refine funext fun a => Fin.ext ?_
  match a with
  | ⟨0, _⟩ => show win6_7.index t (0 : Fin 2) * 5000 + 1 * p.val = t.val * 5000 + p.val; omega
  | ⟨1, _⟩ => show win6_7.index t (1 : Fin 2) * 128 + 1 * q.val = q.val; omega

/-- What point t writes back is block t of the whole array. -/
theorem flushed6_eq (c : Dev nD) (t : Fin cfg6.N) :
    (dat6 (F := Ideal) V c).flushed 7 t = ((cfg6.win 7).blk t).view.read (Elt Ideal) (whole6 V c) := by
  show (cfg6.win 7).cut (grid6.coords t) ((dat6 V c).after 7 t) = _
  rw [after6_7]
  unfold out6_7
  rw [View.canon_unit_zero zero_offsets6]
  simp only [View.ld_unit_zero (S := S5000x128) zero_offsets6, View.ld_unit_zero (S := S128x128) zero_offsets6,
    View.ld_unit_zero (S := S1x128) zero_offsets6]
  funext j
  obtain ⟨p, q, rfl⟩ : ∃ (p : Fin 5000) (q : Fin 128), j = ix2 p q := ⟨j 0, j 1, eq_ix2 j⟩
  refine (k6_pay1_apply _ _ _ _ _ _ _ p q).trans ?_
  rw [View.read_apply, oblk6_emb]
  refine ((Gine.jk3_apply _ _ _ _ _ _ _ (row6 t p) q).trans ?_).symm
  simp only [iblk6_0_apply, iblk6_1_apply, iblk6_2_apply, iblk6_3_apply, iblk6_4_apply, iblk6_5_apply, iblk6_6_apply]

/-- An index of the array is in point t's block iff each coordinate is in the block's range on its axis. -/
theorem mem_oblk6 (t : Fin cfg6.N) (i : S50000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v50).slice (win6_7.rect t)).set ↔ _
  rw [View.set_slice_whole, Rect.mem_set_unit]
  exact Iff.rfl

/-- Every index of the array is in some point's block: row r is in the block of point r / 5000. -/
theorem cover6 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, -, -, -, -, -, -, -, -, -, -, e0, e1⟩ := index_facts6 t
  refine ⟨t, flush6_7 t, ?_⟩
  rw [mem_oblk6]
  intro a
  match a with
  | ⟨0, _⟩ =>
    show win6_7.index t (0 : Fin 2) * 5000 ≤ (i 0).val ∧ (i 0).val < win6_7.index t (0 : Fin 2) * 5000 + 5000
    omega
  | ⟨1, _⟩ =>
    show win6_7.index t (1 : Fin 2) * 128 ≤ (i 1).val ∧ (i 1).val < win6_7.index t (1 : Fin 2) * 128 + 128
    omega

/-- Region 6's output array after its run, from any entry contents `V`: the three products summed, plus the bias row,
    clamped below at zero. -/
theorem region6 (c : Dev nD) :
    (dat6 (F := Ideal) V c).arrAt 7 cfg6.N
      = Gine.jk3 (M := 50000) (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5))
          (Gine.rowOf (n := 128) (V c (Pipeline.arrRef spec6 6))) :=
  (dat6 (F := Ideal) V c).arrAt_eq_of_cover 7 (whole6 V c) (fun t _ => flushed6_eq V c t) cover6

end Cert.KernelIdeal.Val

end
-- ==== Proof.KKeepE.lean ====
import proofs.«102026_j58007828300389_1_alg».proof.Proof.KernelIdealFrameP
import Idealize.ShloMosaic.Lib.StableHlo.Run

/-!
  Which buffers each stretch of @main leaves alone.

  @main alternates seven stretches of host operations with seven kernel regions.  A stretch of host operations
  changes only the buffers its operations name as results; a region changes only its output array, and hands its input
  arrays back as they were.  From these two facts this file walks single buffers through the fold of boundary contents
  `W0 … W14`: the arguments from the launch to the boundary where each is read, the two rows of the edge index from
  where they are made to where they are used again, and each layer's output to the later regions that read it.
-/

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-! ## The result buffers of each stretch of host operations -/

abbrev wr0 : List (Ref sig .tc) :=
  [main_v0, main_v1, main_v2, main_v3, main_c, main_v4, main_v5, main_c_0, main_v6, main_v7, main_v8, main_v9, main_v10]
abbrev wr1 : List (Ref sig .tc) := [main_cst, main_v12, main_v13, main_v14, main_v15, main_v16]
abbrev wr2 : List (Ref sig .tc) :=
  [main_c_1, main_v18, main_v19, main_c_2, main_v20, main_v21, main_v22, main_v23, main_v24]
abbrev wr3 : List (Ref sig .tc) := [main_cst_3, main_v26, main_v27, main_v28, main_v29, main_v30]
abbrev wr4 : List (Ref sig .tc) :=
  [main_c_4, main_v32, main_v33, main_c_5, main_v34, main_v35, main_v36, main_v37, main_v38]
abbrev wr5 : List (Ref sig .tc) := [main_cst_6, main_v40, main_v41, main_v42, main_v43, main_v44]
abbrev wr6 : List (Ref sig .tc) := [main_v46, main_v47, main_v48, main_v49]

/-- One operation's result buffer is in the list. -/
local macro "one_write" : tactic =>
  `(tactic| (simp only [StableHlo.nullary_writes, StableHlo.unary_writes, StableHlo.binary_writes,
      StableHlo.ternary_writes, StableHlo.reshape_writes, Finset.singleton_subset_iff, List.mem_toFinset]
             exact List.mem_map_of_mem (by decide)))

theorem wr0_writes : (hostOps0 : List (HloOp τ sig (Elt F))).Forall
    fun op => op.writes ⊆ (wr0.map (Proc.devRef (τ := τ) .tc)).toFinset := by
  simp only [List.Forall]; repeat' apply And.intro
  all_goals one_write
theorem wr1_writes : (hostOps1 : List (HloOp τ sig (Elt F))).Forall
    fun op => op.writes ⊆ (wr1.map (Proc.devRef (τ := τ) .tc)).toFinset := by
  simp only [List.Forall]; repeat' apply And.intro
  all_goals one_write
theorem wr2_writes : (hostOps2 : List (HloOp τ sig (Elt F))).Forall
    fun op => op.writes ⊆ (wr2.map (Proc.devRef (τ := τ) .tc)).toFinset := by
  simp only [List.Forall]; repeat' apply And.intro
  all_goals one_write
theorem wr3_writes : (hostOps3 : List (HloOp τ sig (Elt F))).Forall
    fun op => op.writes ⊆ (wr3.map (Proc.devRef (τ := τ) .tc)).toFinset := by
  simp only [List.Forall]; repeat' apply And.intro
  all_goals one_write
theorem wr4_writes : (hostOps4 : List (HloOp τ sig (Elt F))).Forall
    fun op => op.writes ⊆ (wr4.map (Proc.devRef (τ := τ) .tc)).toFinset := by
  simp only [List.Forall]; repeat' apply And.intro
  all_goals one_write
theorem wr5_writes : (hostOps5 : List (HloOp τ sig (Elt F))).Forall
    fun op => op.writes ⊆ (wr5.map (Proc.devRef (τ := τ) .tc)).toFinset := by
  simp only [List.Forall]; repeat' apply And.intro
  all_goals one_write
theorem wr6_writes : (hostOps6 : List (HloOp τ sig (Elt F))).Forall
    fun op => op.writes ⊆ (wr6.map (Proc.devRef (τ := τ) .tc)).toFinset := by
  simp only [List.Forall]; repeat' apply And.intro
  all_goals one_write

variable (m : (ℓ : Loc nD τ sig) → Buf (Elt F) ℓ) (ρ : Dev nD → PrngReg) (c : Dev nD)

/-! ## One step of the fold at a buffer the step does not change -/

theorem h1 (r : Ref sig .tc) (h : r ∉ wr0) : W1 m ρ c (Proc.devRef .tc r) = W0 m ρ c (Proc.devRef .tc r) :=
  StableHlo.after_of_writes_sub hostOps0 _ wr0_writes h
theorem h3 (r : Ref sig .tc) (h : r ∉ wr1) : W3 m ρ c (Proc.devRef .tc r) = W2 m ρ c (Proc.devRef .tc r) :=
  StableHlo.after_of_writes_sub hostOps1 _ wr1_writes h
theorem h5 (r : Ref sig .tc) (h : r ∉ wr2) : W5 m ρ c (Proc.devRef .tc r) = W4 m ρ c (Proc.devRef .tc r) :=
  StableHlo.after_of_writes_sub hostOps2 _ wr2_writes h
theorem h7 (r : Ref sig .tc) (h : r ∉ wr3) : W7 m ρ c (Proc.devRef .tc r) = W6 m ρ c (Proc.devRef .tc r) :=
  StableHlo.after_of_writes_sub hostOps3 _ wr3_writes h
theorem h9 (r : Ref sig .tc) (h : r ∉ wr4) : W9 m ρ c (Proc.devRef .tc r) = W8 m ρ c (Proc.devRef .tc r) :=
  StableHlo.after_of_writes_sub hostOps4 _ wr4_writes h
theorem h11 (r : Ref sig .tc) (h : r ∉ wr5) : W11 m ρ c (Proc.devRef .tc r) = W10 m ρ c (Proc.devRef .tc r) :=
  StableHlo.after_of_writes_sub hostOps5 _ wr5_writes h
theorem h13 (r : Ref sig .tc) (h : r ∉ wr6) : W13 m ρ c (Proc.devRef .tc r) = W12 m ρ c (Proc.devRef .tc r) :=
  StableHlo.after_of_writes_sub hostOps6 _ wr6_writes h

/-! ## A buffer that nothing touches, walked from the launch

`Pk` says: a buffer that is no result of the host stretches before boundary `k` and no array of the regions before it holds
at boundary `k` what the launch memory holds.  Each level adds one hypothesis, decided over the references. -/

section Plain
variable (r : Ref sig .tc)

theorem P1 (a1 : r ∉ wr0) : W1 m ρ c (Proc.devRef .tc r) = m ((c : Thread nD τ).loc r) := h1 m ρ c r a1
theorem P2 (a1 : r ∉ wr0) (a2 : ∀ w, Pipeline.arrRef spec0 w ≠ r) :
    W2 m ρ c (Proc.devRef .tc r) = m ((c : Thread nD τ).loc r) := (W2_of_ne m ρ c r a2).trans (P1 m ρ c r a1)
theorem P3 (a1 : r ∉ wr0) (a2 : ∀ w, Pipeline.arrRef spec0 w ≠ r) (a3 : r ∉ wr1) :
    W3 m ρ c (Proc.devRef .tc r) = m ((c : Thread nD τ).loc r) := (h3 m ρ c r a3).trans (P2 m ρ c r a1 a2)
theorem P4 (a1 : r ∉ wr0) (a2 : ∀ w, Pipeline.arrRef spec0 w ≠ r) (a3 : r ∉ wr1) (a4 : ∀ w, Pipeline.arrRef spec1 w ≠ r) :
    W4 m ρ c (Proc.devRef .tc r) = m ((c : Thread nD τ).loc r) := (W4_of_ne m ρ c r a4).trans (P3 m ρ c r a1 a2 a3)
theorem P5 (a1 : r ∉ wr0) (a2 : ∀ w, Pipeline.arrRef spec0 w ≠ r) (a3 : r ∉ wr1) (a4 : ∀ w, Pipeline.arrRef spec1 w ≠ r)
    (a5 : r ∉ wr2) : W5 m ρ c (Proc.devRef .tc r) = m ((c : Thread nD τ).loc r) :=
  (h5 m ρ c r a5).trans (P4 m ρ c r a1 a2 a3 a4)
theorem P6 (a1 : r ∉ wr0) (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) :
    W6 m ρ c (Proc.devRef .tc r) = m ((c : Thread nD τ).loc r) :=
  (W6_of_ne m ρ c r a6).trans (P5 m ρ c r a1 a2 a3 a4 a5)
theorem P7 (a1 : r ∉ wr0) (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) :
    W7 m ρ c (Proc.devRef .tc r) = m ((c : Thread nD τ).loc r) :=
  (h7 m ρ c r a7).trans (P6 m ρ c r a1 a2 a3 a4 a5 a6)
theorem P8 (a1 : r ∉ wr0) (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) (a8 : ∀ w, Pipeline.arrRef spec3 w ≠ r) :
    W8 m ρ c (Proc.devRef .tc r) = m ((c : Thread nD τ).loc r) :=
  (W8_of_ne m ρ c r a8).trans (P7 m ρ c r a1 a2 a3 a4 a5 a6 a7)
theorem P9 (a1 : r ∉ wr0) (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) (a8 : ∀ w, Pipeline.arrRef spec3 w ≠ r)
    (a9 : r ∉ wr4) : W9 m ρ c (Proc.devRef .tc r) = m ((c : Thread nD τ).loc r) :=
  (h9 m ρ c r a9).trans (P8 m ρ c r a1 a2 a3 a4 a5 a6 a7 a8)
theorem P10 (a1 : r ∉ wr0) (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) (a8 : ∀ w, Pipeline.arrRef spec3 w ≠ r)
    (a9 : r ∉ wr4) (a10 : ∀ w, Pipeline.arrRef spec4 w ≠ r) :
    W10 m ρ c (Proc.devRef .tc r) = m ((c : Thread nD τ).loc r) :=
  (W10_of_ne m ρ c r a10).trans (P9 m ρ c r a1 a2 a3 a4 a5 a6 a7 a8 a9)
theorem P11 (a1 : r ∉ wr0) (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) (a8 : ∀ w, Pipeline.arrRef spec3 w ≠ r)
    (a9 : r ∉ wr4) (a10 : ∀ w, Pipeline.arrRef spec4 w ≠ r) (a11 : r ∉ wr5) :
    W11 m ρ c (Proc.devRef .tc r) = m ((c : Thread nD τ).loc r) :=
  (h11 m ρ c r a11).trans (P10 m ρ c r a1 a2 a3 a4 a5 a6 a7 a8 a9 a10)
theorem P12 (a1 : r ∉ wr0) (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) (a8 : ∀ w, Pipeline.arrRef spec3 w ≠ r)
    (a9 : r ∉ wr4) (a10 : ∀ w, Pipeline.arrRef spec4 w ≠ r) (a11 : r ∉ wr5) (a12 : ∀ w, Pipeline.arrRef spec5 w ≠ r) :
    W12 m ρ c (Proc.devRef .tc r) = m ((c : Thread nD τ).loc r) :=
  (W12_of_ne m ρ c r a12).trans (P11 m ρ c r a1 a2 a3 a4 a5 a6 a7 a8 a9 a10 a11)

end Plain

/-! ## The arguments, each at the boundary where it is read -/

/-- Node features at region 1's entry. -/
theorem arg0_W3 : W3 m ρ c (Proc.devRef .tc main_arg0) = m ((c : Thread nD τ).loc main_arg0) :=
  P3 m ρ c main_arg0 (by decide) (by decide) (by decide)
theorem arg3_W3 : W3 m ρ c (Proc.devRef .tc main_arg3) = m ((c : Thread nD τ).loc main_arg3) :=
  P3 m ρ c main_arg3 (by decide) (by decide) (by decide)
theorem arg5_W3 : W3 m ρ c (Proc.devRef .tc main_arg5) = m ((c : Thread nD τ).loc main_arg5) :=
  P3 m ρ c main_arg5 (by decide) (by decide) (by decide)
theorem arg4_W2 : W2 m ρ c (Proc.devRef .tc main_arg4) = m ((c : Thread nD τ).loc main_arg4) :=
  P2 m ρ c main_arg4 (by decide) (by decide)
theorem arg6_W2 : W2 m ρ c (Proc.devRef .tc main_arg6) = m ((c : Thread nD τ).loc main_arg6) :=
  P2 m ρ c main_arg6 (by decide) (by decide)
theorem arg7_W7 : W7 m ρ c (Proc.devRef .tc main_arg7) = m ((c : Thread nD τ).loc main_arg7) :=
  P7 m ρ c main_arg7 (by decide) (by decide) (by decide) (by decide) (by decide) (by decide) (by decide)
theorem arg9_W7 : W7 m ρ c (Proc.devRef .tc main_arg9) = m ((c : Thread nD τ).loc main_arg9) :=
  P7 m ρ c main_arg9 (by decide) (by decide) (by decide) (by decide) (by decide) (by decide) (by decide)
theorem arg8_W6 : W6 m ρ c (Proc.devRef .tc main_arg8) = m ((c : Thread nD τ).loc main_arg8) :=
  P6 m ρ c main_arg8 (by decide) (by decide) (by decide) (by decide) (by decide) (by decide)
theorem arg10_W6 : W6 m ρ c (Proc.devRef .tc main_arg10) = m ((c : Thread nD τ).loc main_arg10) :=
  P6 m ρ c main_arg10 (by decide) (by decide) (by decide) (by decide) (by decide) (by decide)
theorem arg11_W11 : W11 m ρ c (Proc.devRef .tc main_arg11) = m ((c : Thread nD τ).loc main_arg11) :=
  P11 m ρ c main_arg11 (by decide) (by decide) (by decide) (by decide) (by decide) (by decide) (by decide) (by decide)
    (by decide) (by decide) (by decide)
theorem arg13_W11 : W11 m ρ c (Proc.devRef .tc main_arg13) = m ((c : Thread nD τ).loc main_arg13) :=
  P11 m ρ c main_arg13 (by decide) (by decide) (by decide) (by decide) (by decide) (by decide) (by decide) (by decide)
    (by decide) (by decide) (by decide)
theorem arg12_W10 : W10 m ρ c (Proc.devRef .tc main_arg12) = m ((c : Thread nD τ).loc main_arg12) :=
  P10 m ρ c main_arg12 (by decide) (by decide) (by decide) (by decide) (by decide) (by decide) (by decide) (by decide)
    (by decide) (by decide)
theorem arg14_W10 : W10 m ρ c (Proc.devRef .tc main_arg14) = m ((c : Thread nD τ).loc main_arg14) :=
  P10 m ρ c main_arg14 (by decide) (by decide) (by decide) (by decide) (by decide) (by decide) (by decide) (by decide)
    (by decide) (by decide)
theorem arg15_W12 : W12 m ρ c (Proc.devRef .tc main_arg15) = m ((c : Thread nD τ).loc main_arg15) :=
  P12 m ρ c main_arg15 (by decide) (by decide) (by decide) (by decide) (by decide) (by decide) (by decide) (by decide)
    (by decide) (by decide) (by decide) (by decide)
theorem arg16_W12 : W12 m ρ c (Proc.devRef .tc main_arg16) = m ((c : Thread nD τ).loc main_arg16) :=
  P12 m ρ c main_arg16 (by decide) (by decide) (by decide) (by decide) (by decide) (by decide) (by decide) (by decide)
    (by decide) (by decide) (by decide) (by decide)

/-! The edge features are an input array of regions 0, 2 and 4, which hand them back as entered. -/

theorem arg2_W1 : W1 m ρ c (Proc.devRef .tc main_arg2) = m ((c : Thread nD τ).loc main_arg2) := P1 m ρ c main_arg2 (by decide)
theorem arg2_W2 : W2 m ρ c (Proc.devRef .tc main_arg2) = m ((c : Thread nD τ).loc main_arg2) :=
  (W2_arr m ρ c 1).trans ((((dat0 (V1 m ρ) c).arrAt_in 1 rfl _).trans (A_eq0 (V1 m ρ) c 1)).trans (arg2_W1 m ρ c))
theorem arg2_W5 : W5 m ρ c (Proc.devRef .tc main_arg2) = m ((c : Thread nD τ).loc main_arg2) :=
  (h5 m ρ c main_arg2 (by decide)).trans ((W4_of_ne m ρ c main_arg2 (by decide)).trans
    ((h3 m ρ c main_arg2 (by decide)).trans (arg2_W2 m ρ c)))
theorem arg2_W6 : W6 m ρ c (Proc.devRef .tc main_arg2) = m ((c : Thread nD τ).loc main_arg2) :=
  (W6_arr m ρ c 1).trans ((((dat2 (V5 m ρ) c).arrAt_in 1 rfl _).trans (A_eq2 (V5 m ρ) c 1)).trans (arg2_W5 m ρ c))
theorem arg2_W9 : W9 m ρ c (Proc.devRef .tc main_arg2) = m ((c : Thread nD τ).loc main_arg2) :=
  (h9 m ρ c main_arg2 (by decide)).trans ((W8_of_ne m ρ c main_arg2 (by decide)).trans
    ((h7 m ρ c main_arg2 (by decide)).trans (arg2_W6 m ρ c)))

/-! ## The two rows of the edge index, from where they are made to where they are used again -/

section Rows
variable (r : Ref sig .tc)

/-- A buffer nothing touches between boundaries 1 and 10, at the even boundaries in between. -/
theorem Q2 (a2 : ∀ w, Pipeline.arrRef spec0 w ≠ r) : W2 m ρ c (Proc.devRef .tc r) = W1 m ρ c (Proc.devRef .tc r) :=
  W2_of_ne m ρ c r a2
theorem Q4 (a2 : ∀ w, Pipeline.arrRef spec0 w ≠ r) (a3 : r ∉ wr1) (a4 : ∀ w, Pipeline.arrRef spec1 w ≠ r) :
    W4 m ρ c (Proc.devRef .tc r) = W1 m ρ c (Proc.devRef .tc r) :=
  (W4_of_ne m ρ c r a4).trans ((h3 m ρ c r a3).trans (Q2 m ρ c r a2))
theorem Q6 (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) :
    W6 m ρ c (Proc.devRef .tc r) = W1 m ρ c (Proc.devRef .tc r) :=
  (W6_of_ne m ρ c r a6).trans ((h5 m ρ c r a5).trans (Q4 m ρ c r a2 a3 a4))
theorem Q8 (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) (a8 : ∀ w, Pipeline.arrRef spec3 w ≠ r) :
    W8 m ρ c (Proc.devRef .tc r) = W1 m ρ c (Proc.devRef .tc r) :=
  (W8_of_ne m ρ c r a8).trans ((h7 m ρ c r a7).trans (Q6 m ρ c r a2 a3 a4 a5 a6))
theorem Q10 (a2 : ∀ w, Pipeline.arrRef spec0 w ≠ r) (a3 : r ∉ wr1) (a4 : ∀ w, Pipeline.arrRef spec1 w ≠ r)
    (a5 : r ∉ wr2) (a6 : ∀ w, Pipeline.arrRef spec2 w ≠ r) (a7 : r ∉ wr3) (a8 : ∀ w, Pipeline.arrRef spec3 w ≠ r)
    (a9 : r ∉ wr4) (a10 : ∀ w, Pipeline.arrRef spec4 w ≠ r) :
    W10 m ρ c (Proc.devRef .tc r) = W1 m ρ c (Proc.devRef .tc r) :=
  (W10_of_ne m ρ c r a10).trans ((h9 m ρ c r a9).trans (Q8 m ρ c r a2 a3 a4 a5 a6 a7 a8))

end Rows

/-- The source row, where the second and third gathers read it. -/
theorem v1_W4 : W4 m ρ c (Proc.devRef .tc main_v1) = W1 m ρ c (Proc.devRef .tc main_v1) :=
  Q4 m ρ c main_v1 (by decide) (by decide) (by decide)
theorem v1_W8 : W8 m ρ c (Proc.devRef .tc main_v1) = W1 m ρ c (Proc.devRef .tc main_v1) :=
  Q8 m ρ c main_v1 (by decide) (by decide) (by decide) (by decide) (by decide) (by decide) (by decide)
/-- The target row, where the three scatter-sums read it. -/
theorem v3_W2 : W2 m ρ c (Proc.devRef .tc main_v3) = W1 m ρ c (Proc.devRef .tc main_v3) := Q2 m ρ c main_v3 (by decide)
theorem v3_W6 : W6 m ρ c (Proc.devRef .tc main_v3) = W1 m ρ c (Proc.devRef .tc main_v3) :=
  Q6 m ρ c main_v3 (by decide) (by decide) (by decide) (by decide) (by decide)
theorem v3_W10 : W10 m ρ c (Proc.devRef .tc main_v3) = W1 m ρ c (Proc.devRef .tc main_v3) :=
  Q10 m ρ c main_v3 (by decide) (by decide) (by decide) (by decide) (by decide) (by decide) (by decide) (by decide)
    (by decide)

/-! ## Each layer's output, from the region that writes it to the later regions that read it -/

/-- The first layer's output at region 3's entry: no host stretch in between writes it and region 2 does not hold it. -/
theorem v17_W7 : W7 m ρ c (Proc.devRef .tc main_v17) = W4 m ρ c (Proc.devRef .tc main_v17) :=
  (h7 m ρ c main_v17 (by decide)).trans ((W6_of_ne m ρ c main_v17 (by decide)).trans (h5 m ρ c main_v17 (by decide)))
/-- Region 3 reads it as an input array and hands it back. -/
theorem v17_W8 : W8 m ρ c (Proc.devRef .tc main_v17) = W4 m ρ c (Proc.devRef .tc main_v17) :=
  (W8_arr m ρ c 0).trans ((((dat3 (V7 m ρ) c).arrAt_in 0 rfl _).trans (A_eq3 (V7 m ρ) c 0)).trans (v17_W7 m ρ c))
/-- The first layer's output at region 6's entry. -/
theorem v17_W13 : W13 m ρ c (Proc.devRef .tc main_v17) = W4 m ρ c (Proc.devRef .tc main_v17) :=
  (h13 m ρ c main_v17 (by decide)).trans ((W12_of_ne m ρ c main_v17 (by decide)).trans
    ((h11 m ρ c main_v17 (by decide)).trans ((W10_of_ne m ρ c main_v17 (by decide)).trans
      ((h9 m ρ c main_v17 (by decide)).trans (v17_W8 m ρ c)))))
/-- The second layer's output at region 5's entry. -/
theorem v31_W11 : W11 m ρ c (Proc.devRef .tc main_v31) = W8 m ρ c (Proc.devRef .tc main_v31) :=
  (h11 m ρ c main_v31 (by decide)).trans ((W10_of_ne m ρ c main_v31 (by decide)).trans (h9 m ρ c main_v31 (by decide)))
/-- Region 5 reads it as an input array and hands it back; the last host stretch does not write it. -/
theorem v31_W13 : W13 m ρ c (Proc.devRef .tc main_v31) = W8 m ρ c (Proc.devRef .tc main_v31) :=
  (h13 m ρ c main_v31 (by decide)).trans ((W12_arr m ρ c 0).trans
    ((((dat5 (V11 m ρ) c).arrAt_in 0 rfl _).trans (A_eq5 (V11 m ρ) c 0)).trans (v31_W11 m ρ c)))
/-- The third layer's output at region 6's entry. -/
theorem v45_W13 : W13 m ρ c (Proc.devRef .tc main_v45) = W12 m ρ c (Proc.devRef .tc main_v45) := h13 m ρ c main_v45 (by decide)

end Cert.KernelIdeal.Val

end
-- ==== Proof.KChain.lean ====
import proofs.«102026_j58007828300389_1_alg».proof.Proof.KernelIdealFrameP
import proofs.«102026_j58007828300389_1_alg».proof.Proof.Spec
import proofs.«102026_j58007828300389_1_alg».proof.Proof.KOps
import proofs.«102026_j58007828300389_1_alg».proof.Proof.KMsg0
import proofs.«102026_j58007828300389_1_alg».proof.Proof.KMlp1
import proofs.«102026_j58007828300389_1_alg».proof.Proof.KMsg2
import proofs.«102026_j58007828300389_1_alg».proof.Proof.KMlp3
import proofs.«102026_j58007828300389_1_alg».proof.Proof.KMsg4
import proofs.«102026_j58007828300389_1_alg».proof.Proof.KMlp5
import proofs.«102026_j58007828300389_1_alg».proof.Proof.KJk6
import proofs.«102026_j58007828300389_1_alg».proof.Proof.KKeepE
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
/-!
  The fold through @main, read at the result buffer.

  @main runs three layers and a closing linear map.  Each layer is a host stretch that gathers node rows at the edges'
  source column, a region that adds the edge features and clamps, a host stretch that sums the edge rows into the
  edges' target nodes and lays the two bias vectors out as 1 × 128 arrays, and a region that applies the two-layer
  perceptron.  The last host stretch cuts the closing weight into its three blocks of 128 rows and the last region
  joins the three layers' outputs.  Boundary by boundary, each live buffer is identified with the corresponding piece of
  `Gine.out` of the launch contents of the arguments; the gather and the scatter-sum are carried as the two opaque maps
  `gath` and `scat` and never opened.
-/

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx

/-! ## The two index maps, spelt from the rows of the edge index -/

/-- Row 0 of the edge index (each edge's source node) as a vector. -/
def row0 (ei : (⟨S2x600000, .i32⟩ : BufTy).Contents (Elt Ideal)) : (⟨S600000, .i32⟩ : BufTy).Contents (Elt Ideal) :=
  shapeCast _ (extractStridedSlice S1x600000 ![0, 0] ei slices_S2x600000_S1x600000_0_0) shapeCasts_S1x600000_S600000
/-- Row 1 of the edge index (each edge's target node) as a vector. -/
def row1 (ei : (⟨S2x600000, .i32⟩ : BufTy).Contents (Elt Ideal)) : (⟨S600000, .i32⟩ : BufTy).Contents (Elt Ideal) :=
  shapeCast _ (extractStridedSlice S1x600000 ![1, 0] ei slices_S2x600000_S1x600000_1_0) shapeCasts_S1x600000_S600000
/-- The source column made from the source row: negative entries shifted up by the number of nodes. -/
def srcOf (r : (⟨S600000, .i32⟩ : BufTy).Contents (Elt Ideal)) : (⟨S600000x1, .i32⟩ : BufTy).Contents (Elt Ideal) :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

theorem gath_eq (ei : (⟨S2x600000, .i32⟩ : BufTy).Contents (Elt Ideal)) (x : Gine.Mat 50000 128) :
    gath ei x = Host.gather gather_S50000x128_S600000x1_S600000x128_1_0_n_n_0_1_1128 x (srcOf (row0 ei)) := rfl
theorem scat_eq (ei : (⟨S2x600000, .i32⟩ : BufTy).Contents (Elt Ideal)) (u : Gine.Mat 600000 128) :
    scat ei u = Host.scatterAdd (F := Ideal) scatter_S50000x128_S600000x1_S600000x128_1_0_0_1
      (broadcastInDim S50000x128 ![] bcast_S_S50000x128 (constant S_ .f32 0x00000000#32))
      (broadcastInDim S600000x1 ![0] bcast_S600000_S600000x1_0 (row1 ei)) u := rfl

/-! ## Two layout facts -/

/-- A length-128 vector laid out as a 1 × 128 array and read back as a vector is itself. -/
theorem rowOf_cast (b : Gine.Row 128) (h : S128.ShapeCasts S1x128) : Gine.rowOf (n := 128) (shapeCast S1x128 b h) = b := by
  funext j
  obtain ⟨q, rfl⟩ : ∃ q : Fin 128, j = ix1 q := ⟨j 0, eq_ix1 j⟩
  exact shapeCast_a_1a_apply b h (0 : Fin 1) q

/-- The 128 rows of the closing weight cut out from row `o` on are `Gine.rows o 128` of it. -/
theorem slice_rows (o : Nat) (ho : o + 128 ≤ 384) (Wc : Gine.Mat 384 128) (h : S384x128.Slices ![o, 0] S128x128) :
    extractStridedSlice S128x128 ![o, 0] Wc h = Gine.rows o 128 ho Wc := by
  funext i
  obtain ⟨p, q, rfl⟩ : ∃ (p : Fin 128) (q : Fin 128), i = ix2 p q := ⟨i 0, i 1, eq_ix2 i⟩
  exact slice2_axis0_apply o Wc h p q ⟨o + p.val, by omega⟩ rfl

variable (m : (ℓ : Loc nD τ sig) → Buf (Elt Ideal) ℓ) (ρ : Dev nD → PrngReg)

section Walk

variable (c : Dev nD)

/-! ## The three layers' outputs, as functions of the launch memory -/

/-- The first layer's output. -/
def X1 : Gine.Mat 50000 128 :=
  Gine.layer (gath (m ((c : Thread nD τ).loc main_arg1))) (scat (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
/-- The second layer's output. -/
def X2 : Gine.Mat 50000 128 :=
  Gine.layer (gath (m ((c : Thread nD τ).loc main_arg1))) (scat (m ((c : Thread nD τ).loc main_arg1))) (X1 m c) (m ((c : Thread nD τ).loc main_arg2)) (m ((c : Thread nD τ).loc main_arg7)) (m ((c : Thread nD τ).loc main_arg8)) (m ((c : Thread nD τ).loc main_arg9)) (m ((c : Thread nD τ).loc main_arg10))
/-- The third layer's output. -/
def X3 : Gine.Mat 50000 128 :=
  Gine.layer (gath (m ((c : Thread nD τ).loc main_arg1))) (scat (m ((c : Thread nD τ).loc main_arg1))) (X2 m c) (m ((c : Thread nD τ).loc main_arg2)) (m ((c : Thread nD τ).loc main_arg11)) (m ((c : Thread nD τ).loc main_arg12)) (m ((c : Thread nD τ).loc main_arg13)) (m ((c : Thread nD τ).loc main_arg14))

/-! ## After the first host stretch: the two rows of the edge index and the first gather -/

theorem W1_v1 : W1 m ρ c (Proc.devRef .tc main_v1) = row0 (m ((c : Thread nD τ).loc main_arg1)) := by
  show StableHlo.after hostOps0 (W0 m ρ c) (Proc.devRef .tc main_v1) = _
  after_results
  rfl
theorem W1_v3 : W1 m ρ c (Proc.devRef .tc main_v3) = row1 (m ((c : Thread nD τ).loc main_arg1)) := by
  show StableHlo.after hostOps0 (W0 m ρ c) (Proc.devRef .tc main_v3) = _
  after_results
  rfl
theorem W1_v10 : W1 m ρ c (Proc.devRef .tc main_v10) = gath (m ((c : Thread nD τ).loc main_arg1)) (m ((c : Thread nD τ).loc main_arg0)) := by
  show StableHlo.after hostOps0 (W0 m ρ c) (Proc.devRef .tc main_v10) = _
  after_results
  rfl

/-! ## The first layer -/

/-- Region 0 leaves the clamped sum of the gathered node rows and the edge features. -/
theorem W2_v11 : W2 m ρ c (Proc.devRef .tc main_v11) = Gine.msg (gath (m ((c : Thread nD τ).loc main_arg1)) (m ((c : Thread nD τ).loc main_arg0))) (m ((c : Thread nD τ).loc main_arg2)) :=
  (W2_arr m ρ c 2).trans ((region0 (V1 m ρ) c).trans (congrArg₂ Gine.msg (W1_v10 m ρ c) (arg2_W1 m ρ c)))
/-- The scatter-sum of it into the nodes. -/
theorem W3_v14 : W3 m ρ c (Proc.devRef .tc main_v14) = scat (m ((c : Thread nD τ).loc main_arg1)) (Gine.msg (gath (m ((c : Thread nD τ).loc main_arg1)) (m ((c : Thread nD τ).loc main_arg0))) (m ((c : Thread nD τ).loc main_arg2))) := by
  show StableHlo.after hostOps1 (W2 m ρ c) (Proc.devRef .tc main_v14) = _
  after_results
  rw [v3_W2, W1_v3, W2_v11, scat_eq]
theorem W3_v15 : W3 m ρ c (Proc.devRef .tc main_v15) = shapeCast S1x128 (m ((c : Thread nD τ).loc main_arg4)) shapeCasts_S128_S1x128 := by
  show StableHlo.after hostOps1 (W2 m ρ c) (Proc.devRef .tc main_v15) = _
  after_results
  rw [arg4_W2]
  rfl
theorem W3_v16 : W3 m ρ c (Proc.devRef .tc main_v16) = shapeCast S1x128 (m ((c : Thread nD τ).loc main_arg6)) shapeCasts_S128_S1x128 := by
  show StableHlo.after hostOps1 (W2 m ρ c) (Proc.devRef .tc main_v16) = _
  after_results
  rw [arg6_W2]
  rfl
/-- Region 1 leaves the first layer's output. -/
theorem W4_v17 : W4 m ρ c (Proc.devRef .tc main_v17) = X1 m c := by
  refine (W4_arr m ρ c 6).trans ((region1 (V3 m ρ) c).trans ?_)
  show Gine.mlp (W3 m ρ c (Proc.devRef .tc main_arg0)) (W3 m ρ c (Proc.devRef .tc main_v14))
    (W3 m ρ c (Proc.devRef .tc main_arg3)) (Gine.rowOf (W3 m ρ c (Proc.devRef .tc main_v15)))
    (W3 m ρ c (Proc.devRef .tc main_arg5)) (Gine.rowOf (W3 m ρ c (Proc.devRef .tc main_v16))) = _
  rw [arg0_W3, W3_v14, arg3_W3, W3_v15, arg5_W3, W3_v16, rowOf_cast, rowOf_cast]
  rfl

/-! ## The second layer -/

/-- The second gather reads the first layer's output at the same source column. -/
theorem W5_v24 : W5 m ρ c (Proc.devRef .tc main_v24) = gath (m ((c : Thread nD τ).loc main_arg1)) (X1 m c) := by
  show StableHlo.after hostOps2 (W4 m ρ c) (Proc.devRef .tc main_v24) = _
  after_results
  rw [v1_W4, W1_v1, W4_v17, gath_eq, srcOf]
theorem W6_v25 : W6 m ρ c (Proc.devRef .tc main_v25) = Gine.msg (gath (m ((c : Thread nD τ).loc main_arg1)) (X1 m c)) (m ((c : Thread nD τ).loc main_arg2)) :=
  (W6_arr m ρ c 2).trans ((region2 (V5 m ρ) c).trans
    (congrArg₂ Gine.msg (W5_v24 m ρ c) (arg2_W5 m ρ c)))
theorem W7_v28 :
    W7 m ρ c (Proc.devRef .tc main_v28) = scat (m ((c : Thread nD τ).loc main_arg1)) (Gine.msg (gath (m ((c : Thread nD τ).loc main_arg1)) (X1 m c)) (m ((c : Thread nD τ).loc main_arg2))) := by
  show StableHlo.after hostOps3 (W6 m ρ c) (Proc.devRef .tc main_v28) = _
  after_results
  rw [v3_W6, W1_v3, W6_v25, scat_eq]
theorem W7_v29 : W7 m ρ c (Proc.devRef .tc main_v29) = shapeCast S1x128 (m ((c : Thread nD τ).loc main_arg8)) shapeCasts_S128_S1x128 := by
  show StableHlo.after hostOps3 (W6 m ρ c) (Proc.devRef .tc main_v29) = _
  after_results
  rw [arg8_W6]
  rfl
theorem W7_v30 : W7 m ρ c (Proc.devRef .tc main_v30) = shapeCast S1x128 (m ((c : Thread nD τ).loc main_arg10)) shapeCasts_S128_S1x128 := by
  show StableHlo.after hostOps3 (W6 m ρ c) (Proc.devRef .tc main_v30) = _
  after_results
  rw [arg10_W6]
  rfl
/-- Region 3 leaves the second layer's output. -/
theorem W8_v31 : W8 m ρ c (Proc.devRef .tc main_v31) = X2 m c := by
  refine (W8_arr m ρ c 6).trans ((region3 (V7 m ρ) c).trans ?_)
  show Gine.mlp (W7 m ρ c (Proc.devRef .tc main_v17)) (W7 m ρ c (Proc.devRef .tc main_v28))
    (W7 m ρ c (Proc.devRef .tc main_arg7)) (Gine.rowOf (W7 m ρ c (Proc.devRef .tc main_v29)))
    (W7 m ρ c (Proc.devRef .tc main_arg9)) (Gine.rowOf (W7 m ρ c (Proc.devRef .tc main_v30))) = _
  rw [v17_W7, W4_v17, W7_v28, arg7_W7, W7_v29, arg9_W7, W7_v30,
    rowOf_cast, rowOf_cast]
  rfl

/-! ## The third layer -/

/-- The third gather reads the second layer's output at the same source column. -/
theorem W9_v38 : W9 m ρ c (Proc.devRef .tc main_v38) = gath (m ((c : Thread nD τ).loc main_arg1)) (X2 m c) := by
  show StableHlo.after hostOps4 (W8 m ρ c) (Proc.devRef .tc main_v38) = _
  after_results
  rw [v1_W8, W1_v1, W8_v31, gath_eq, srcOf]
theorem W10_v39 : W10 m ρ c (Proc.devRef .tc main_v39) = Gine.msg (gath (m ((c : Thread nD τ).loc main_arg1)) (X2 m c)) (m ((c : Thread nD τ).loc main_arg2)) :=
  (W10_arr m ρ c 2).trans ((region4 (V9 m ρ) c).trans
    (congrArg₂ Gine.msg (W9_v38 m ρ c) (arg2_W9 m ρ c)))
theorem W11_v42 :
    W11 m ρ c (Proc.devRef .tc main_v42) = scat (m ((c : Thread nD τ).loc main_arg1)) (Gine.msg (gath (m ((c : Thread nD τ).loc main_arg1)) (X2 m c)) (m ((c : Thread nD τ).loc main_arg2))) := by
  show StableHlo.after hostOps5 (W10 m ρ c) (Proc.devRef .tc main_v42) = _
  after_results
  rw [v3_W10, W1_v3, W10_v39, scat_eq]
theorem W11_v43 : W11 m ρ c (Proc.devRef .tc main_v43) = shapeCast S1x128 (m ((c : Thread nD τ).loc main_arg12)) shapeCasts_S128_S1x128 := by
  show StableHlo.after hostOps5 (W10 m ρ c) (Proc.devRef .tc main_v43) = _
  after_results
  rw [arg12_W10]
  rfl
theorem W11_v44 : W11 m ρ c (Proc.devRef .tc main_v44) = shapeCast S1x128 (m ((c : Thread nD τ).loc main_arg14)) shapeCasts_S128_S1x128 := by
  show StableHlo.after hostOps5 (W10 m ρ c) (Proc.devRef .tc main_v44) = _
  after_results
  rw [arg14_W10]
  rfl
/-- Region 5 leaves the third layer's output. -/
theorem W12_v45 : W12 m ρ c (Proc.devRef .tc main_v45) = X3 m c := by
  refine (W12_arr m ρ c 6).trans ((region5 (V11 m ρ) c).trans ?_)
  show Gine.mlp (W11 m ρ c (Proc.devRef .tc main_v31)) (W11 m ρ c (Proc.devRef .tc main_v42))
    (W11 m ρ c (Proc.devRef .tc main_arg11)) (Gine.rowOf (W11 m ρ c (Proc.devRef .tc main_v43)))
    (W11 m ρ c (Proc.devRef .tc main_arg13)) (Gine.rowOf (W11 m ρ c (Proc.devRef .tc main_v44))) = _
  rw [v31_W11, W8_v31, W11_v42, arg11_W11, W11_v43, arg13_W11, W11_v44,
    rowOf_cast, rowOf_cast]
  rfl

/-! ## The closing linear map -/

theorem W13_v46 : W13 m ρ c (Proc.devRef .tc main_v46) = Gine.rows 0 128 (by omega) (m ((c : Thread nD τ).loc main_arg15)) := by
  show StableHlo.after hostOps6 (W12 m ρ c) (Proc.devRef .tc main_v46) = _
  after_results
  rw [arg15_W12]
  exact slice_rows 0 _ _ _
theorem W13_v47 : W13 m ρ c (Proc.devRef .tc main_v47) = Gine.rows 128 128 (by omega) (m ((c : Thread nD τ).loc main_arg15)) := by
  show StableHlo.after hostOps6 (W12 m ρ c) (Proc.devRef .tc main_v47) = _
  after_results
  rw [arg15_W12]
  exact slice_rows 128 _ _ _
theorem W13_v48 : W13 m ρ c (Proc.devRef .tc main_v48) = Gine.rows 256 128 (by omega) (m ((c : Thread nD τ).loc main_arg15)) := by
  show StableHlo.after hostOps6 (W12 m ρ c) (Proc.devRef .tc main_v48) = _
  after_results
  rw [arg15_W12]
  exact slice_rows 256 _ _ _
theorem W13_v49 : W13 m ρ c (Proc.devRef .tc main_v49) = shapeCast S1x128 (m ((c : Thread nD τ).loc main_arg16)) shapeCasts_S128_S1x128 := by
  show StableHlo.after hostOps6 (W12 m ρ c) (Proc.devRef .tc main_v49) = _
  after_results
  rw [arg16_W12]
  rfl

end Walk

/-- What the result buffer holds at the end of the fold through @main: the network of the launch contents of the
    arguments. -/
theorem result_eq (c : Dev nD) :
    W14 (F := Ideal) m ρ c (Proc.devRef .tc main_v50)
      = Gine.out (gath (m ((c : Thread nD τ).loc main_arg1))) (scat (m ((c : Thread nD τ).loc main_arg1)))
          (m ((c : Thread nD τ).loc main_arg0)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14))
          (m ((c : Thread nD τ).loc main_arg15)) (m ((c : Thread nD τ).loc main_arg16)) := by
  refine (W14_arr m ρ c 7).trans ((region6 (V13 m ρ) c).trans ?_)
  show Gine.jk3 (W13 m ρ c (Proc.devRef .tc main_v17)) (W13 m ρ c (Proc.devRef .tc main_v31)) (W13 m ρ c (Proc.devRef .tc main_v45))
    (W13 m ρ c (Proc.devRef .tc main_v46)) (W13 m ρ c (Proc.devRef .tc main_v47)) (W13 m ρ c (Proc.devRef .tc main_v48))
    (Gine.rowOf (W13 m ρ c (Proc.devRef .tc main_v49))) = _
  rw [v17_W13, W4_v17, v31_W13, W8_v31, v45_W13, W12_v45, W13_v46, W13_v47, W13_v48, W13_v49, rowOf_cast]
  rfl

end Cert.KernelIdeal.Val

end
-- ==== Proof.ROps.lean ====
/-
  The two maps between node arrays and edge arrays that the network's layers use, as this program spells them from
  the integer input edge_index (2 × E): row 0 holds each edge's source node, row 1 its target node.
  `srcIdx` is row 0 with negative entries shifted up by the number of nodes, laid out as an E × 1 column;
  `dstIdx` is row 1 as an E × 1 column.  `gath` reads node rows at the source column; `scat` sums edge rows into a
  zero array at the target column.  Nothing here is opened by the proofs that use it: both programs apply the same
  two maps, and only that is needed.
-/
import proofs.«102026_j58007828300389_1_alg».proof.ReferenceIdeal
import proofs.«102026_j58007828300389_1_alg».proof.Proof.Gen.ReferenceIdeal
import proofs.«102026_j58007828300389_1_alg».proof.Proof.Spec

noncomputable section

namespace Cert.ReferenceIdeal.RefVal

open Cert.ReferenceIdeal Cert.ReferenceIdeal.Facts₀ Cert.ReferenceIdeal.Facts Idealize.ShloMosaic Idealize.ShloMosaic.TcCoe

/-- Each edge's source node, negative entries wrapped, as a column. -/
def srcIdx (ei : (⟨S2x600000, .i32⟩ : BufTy).Contents (Elt Ideal)) : (⟨S600000x1, .i32⟩ : BufTy).Contents (Elt Ideal) :=
  broadcastInDim S600000x1 ![0] bcast_S600000_S600000x1_0
    (select
      (cmpi .slt (shapeCast _ (extractStridedSlice S1x600000 ![0, 0] ei slices_S2x600000_S1x600000_0_0) shapeCasts_S1x600000_S600000)
        (broadcastInDim S600000 ![] bcast_S_S600000 (constantI S_ 32 0#32)))
      (addi (shapeCast _ (extractStridedSlice S1x600000 ![0, 0] ei slices_S2x600000_S1x600000_0_0) shapeCasts_S1x600000_S600000)
        (broadcastInDim S600000 ![] bcast_S_S600000 (constantI S_ 32 50000#32)))
      (shapeCast _ (extractStridedSlice S1x600000 ![0, 0] ei slices_S2x600000_S1x600000_0_0) shapeCasts_S1x600000_S600000))

/-- Each edge's target node, as a column. -/
def dstIdx (ei : (⟨S2x600000, .i32⟩ : BufTy).Contents (Elt Ideal)) : (⟨S600000x1, .i32⟩ : BufTy).Contents (Elt Ideal) :=
  broadcastInDim S600000x1 ![0] bcast_S600000_S600000x1_0
    (shapeCast _ (extractStridedSlice S1x600000 ![1, 0] ei slices_S2x600000_S1x600000_1_0) shapeCasts_S1x600000_S600000)

/-- Node rows read at each edge's source. -/
def gath (ei : (⟨S2x600000, .i32⟩ : BufTy).Contents (Elt Ideal)) : Gine.Mat 50000 128 → Gine.Mat 600000 128 :=
  fun x => Host.gather gather_S50000x128_S600000x1_S600000x128_1_0_n_n_0_1_1128 x (srcIdx ei)

/-- Edge rows summed into each edge's target node, from zero. -/
def scat (ei : (⟨S2x600000, .i32⟩ : BufTy).Contents (Elt Ideal)) : Gine.Mat 600000 128 → Gine.Mat 50000 128 :=
  fun u => Host.scatterAdd (F := Ideal) scatter_S50000x128_S600000x1_S600000x128_1_0_0_1
    (broadcastInDim S50000x128 ![] bcast_S_S50000x128 (constant S_ .f32 0x00000000#32)) (dstIdx ei) u

end Cert.ReferenceIdeal.RefVal

end
-- ==== Proof.RefOps.lean ====
/-
  The reference program's operations, read as the network's building blocks.

  The reference computes each layer with whole-array operations: an entry-by-entry sum followed by a maximum with a
  zero array (a clamp below at zero), a matrix product given as a contraction over one shared axis, a bias vector
  spread along the rows, and at the end a product against the three layer outputs laid side by side along the columns.
  Each of these is shown equal, as a function of whole arrays, to the corresponding block of the specification:

    max (a + b) 0                                   = msg a b
    a + b                                           = add a b
    max (A · W + b) 0                               = lin A W b
    max ([x0 | x1 | x2] · Wc + bc) 0                = jk x0 x1 x2 Wc bc

  For the last one the sum over the 384 shared coordinates splits into its three runs of 128, and on the j-th run the
  joined array reads the j-th layer output while the weight reads its rows 128 j … 128 j + 127.

  The whole result is then the network of the arguments, the two index maps (rows read at the edges' sources, edge
  rows summed at the edges' targets) staying as opaque functions throughout.
-/
import proofs.«102026_j58007828300389_1_alg».proof.ReferenceIdeal
import proofs.«102026_j58007828300389_1_alg».proof.Proof.Gen.ReferenceIdeal
import proofs.«102026_j58007828300389_1_alg».proof.Proof.Spec
import proofs.«102026_j58007828300389_1_alg».proof.Proof.ROps
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Facts₀ Cert.ReferenceIdeal.Facts Idealize.ShloMosaic Idealize.ShloMosaic.TcCoe Idealize.ShloMosaic.ValueIdx

/-- The zero splat over the edge array reads the extended real 0 everywhere. -/
theorem zeroE_apply (i : S600000x128.Idx) :
    broadcastInDim S600000x128 ![] bcast_S_S600000x128 (constant (F := Ideal) S_ .f32 0x00000000#32) i = 0 := by
  rw [broadcastInDim_apply _ bcast_S_S600000x128 _ i (fun a => a.elim0) (fun a => a.elim0)]
  rw [constant_apply, Ideal.ofBits_zero_f32]

/-- The zero splat over the node array reads the extended real 0 everywhere. -/
theorem zeroN_apply (i : S50000x128.Idx) :
    broadcastInDim S50000x128 ![] bcast_S_S50000x128 (constant (F := Ideal) S_ .f32 0x00000000#32) i = 0 := by
  rw [broadcastInDim_apply _ bcast_S_S50000x128 _ i (fun a => a.elim0) (fun a => a.elim0)]
  rw [constant_apply, Ideal.ofBits_zero_f32]

/-- The clamped sum over the edge array. -/
theorem relu_add_E (a b : Gine.Mat 600000 128) :
    (maximumf (addf a b) (broadcastInDim S600000x128 ![] bcast_S_S600000x128 (constant S_ .f32 0x00000000#32)) : Gine.Mat 600000 128)
      = Gine.msg a b := by
  funext i
  rw [maximumf_apply, addf_apply, zeroE_apply]
  rfl

/-- The sum over the node array. -/
theorem add_N (a b : Gine.Mat 50000 128) : (addf a b : Gine.Mat 50000 128) = Gine.add a b := rfl

/-- A length-128 vector laid along the columns of the node array reads its q-th entry at (p, q). -/
theorem bias_apply (b : Gine.Row 128) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rw [broadcastInDim_apply _ bcast_S128_S1x128_1 _ (ix2 (0 : Fin 1) q) (ix1 q) (fun a => match a with
    | ⟨0, _⟩ => by show q.val = if (128 : Nat) = 1 then 0 else q.val; rw [if_neg (by decide)])]

/-! The two products' operand indices, axis by axis. -/

theorem lhs128_0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs128_1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
theorem rhs128_0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
theorem rhs128_1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The product read at (p, q): the sum over the shared coordinate k of A(p, k) · W(k, q). -/
theorem dot128_apply (A : Gine.Mat 50000 128) (W : Gine.Mat 128 128) (p : Fin 50000) (q : Fin 128) :
    Host.dotGeneral dot_S50000x128_S128x128_S50000x128_1_0_0_1_n_n none A W (ix2 p q) = ∑ k : Fin 128, A (ix2 p k) * W (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- One linear map of a perceptron: product, bias along the rows, clamp. -/
theorem lin_N (A : Gine.Mat 50000 128) (W : Gine.Mat 128 128) (b : Gine.Row 128) :
    (maximumf (addf (Host.dotGeneral dot_S50000x128_S128x128_S50000x128_1_0_0_1_n_n none A W)
        (broadcastInDim S50000x128 ![0, 1] bcast_S1x128_S50000x128_0_1 (broadcastInDim S1x128 ![1] bcast_S128_S1x128_1 b)))
      (broadcastInDim S50000x128 ![] bcast_S_S50000x128 (constant S_ .f32 0x00000000#32)) : Gine.Mat 50000 128)
      = Gine.lin A W b := by
  funext i
  obtain ⟨p, q, rfl⟩ : ∃ p q, i = ix2 p q := ⟨i 0, i 1, eq_ix2 i⟩
  rw [maximumf_apply, addf_apply, zeroN_apply, dot128_apply, bias_apply, Gine.lin_apply]

theorem lhs384_0 (i : S50000x128.Idx) (c : dot_S50000x384_S384x128_S50000x128_1_0_0_1_n_n.contr.Idx) :
    (dot_S50000x384_S384x128_S50000x128_1_0_0_1_n_n.lhsIdx i c 0).val = (i 0).val := by
  unfold DotDims.lhsIdx
  rw [dif_neg (show ¬(0 : Fin S50000x384.rank) ∈ dot_S50000x384_S384x128_S50000x128_1_0_0_1_n_n.lhsBatch by decide), dif_pos (show (0 : Fin S50000x384.rank) ∈ dot_S50000x384_S384x128_S50000x128_1_0_0_1_n_n.lhsNonContracting by decide)]
  rfl
theorem lhs384_1 (i : S50000x128.Idx) (c : dot_S50000x384_S384x128_S50000x128_1_0_0_1_n_n.contr.Idx) :
    (dot_S50000x384_S384x128_S50000x128_1_0_0_1_n_n.lhsIdx i c 1).val = (c ⟨0, by decide⟩).val :=
  dot_S50000x384_S384x128_S50000x128_1_0_0_1_n_n.lhsIdx_val_of_single rfl i c
theorem rhs384_0 (i : S50000x128.Idx) (c : dot_S50000x384_S384x128_S50000x128_1_0_0_1_n_n.contr.Idx) :
    (dot_S50000x384_S384x128_S50000x128_1_0_0_1_n_n.rhsIdx i c 0).val = (c ⟨0, by decide⟩).val :=
  dot_S50000x384_S384x128_S50000x128_1_0_0_1_n_n.rhsIdx_val_of_single rfl i c
theorem rhs384_1 (i : S50000x128.Idx) (c : dot_S50000x384_S384x128_S50000x128_1_0_0_1_n_n.contr.Idx) :
    (dot_S50000x384_S384x128_S50000x128_1_0_0_1_n_n.rhsIdx i c 1).val = (i 1).val := by
  unfold DotDims.rhsIdx
  rw [dif_neg (show ¬(1 : Fin S384x128.rank) ∈ dot_S50000x384_S384x128_S50000x128_1_0_0_1_n_n.rhsBatch by decide), dif_pos (show (1 : Fin S384x128.rank) ∈ dot_S50000x384_S384x128_S50000x128_1_0_0_1_n_n.rhsNonContracting by decide)]
  rfl

/-- The product read at (p, q): the sum over the shared coordinate k of A(p, k) · W(k, q). -/
theorem dot384_apply (A : Gine.Mat 50000 384) (W : Gine.Mat 384 128) (p : Fin 50000) (q : Fin 128) :
    Host.dotGeneral dot_S50000x384_S384x128_S50000x128_1_0_0_1_n_n none A W (ix2 p q) = ∑ k : Fin 384, A (ix2 p k) * W (ix2 k q) := by
  simp only [Host.dotGeneral]
  rw [Ideal.dotGeneral_apply, ← Equiv.sum_comp (contrEquiv1 dot_S50000x384_S384x128_S50000x128_1_0_0_1_n_n 384 rfl rfl).symm]
  refine Finset.sum_congr rfl fun k _ => ?_
  have hk := contrEquiv1_symm_val dot_S50000x384_S384x128_S50000x128_1_0_0_1_n_n 384 rfl rfl k
  have el : dot_S50000x384_S384x128_S50000x128_1_0_0_1_n_n.lhsIdx (ix2 p q) ((contrEquiv1 dot_S50000x384_S384x128_S50000x128_1_0_0_1_n_n 384 rfl rfl).symm k) = ix2 p k := funext fun a => Fin.ext (by
    match a with
    | ⟨0, _⟩ => exact lhs384_0 _ _
    | ⟨1, _⟩ => exact (lhs384_1 _ _).trans hk)
  have er : dot_S50000x384_S384x128_S50000x128_1_0_0_1_n_n.rhsIdx (ix2 p q) ((contrEquiv1 dot_S50000x384_S384x128_S50000x128_1_0_0_1_n_n 384 rfl rfl).symm k) = ix2 k q := funext fun a => Fin.ext (by
    match a with
    | ⟨0, _⟩ => exact (rhs384_0 _ _).trans hk
    | ⟨1, _⟩ => exact rhs384_1 _ _)
  rw [el, er]

/-- A sum over 3 n consecutive coordinates is the sum of its three runs of n. -/
theorem sum_three (n : Nat) (f : Fin (n + n + n) → EReal) :
    ∑ j, f j = ((∑ k : Fin n, f (Fin.castAdd n (Fin.castAdd n k))) + ∑ k : Fin n, f (Fin.castAdd n (Fin.natAdd n k)))
      + ∑ k : Fin n, f (Fin.natAdd (n + n) k) := by
  rw [Fin.sum_univ_add, Fin.sum_univ_add]

/-- The same at 384 = 3 · 128, the runs' coordinates written as offset plus position. -/
theorem sum_384 (f : Fin 384 → EReal) :
    ∑ j, f j = ((∑ k : Fin 128, f ⟨0 + k.val, by omega⟩) + ∑ k : Fin 128, f ⟨128 + k.val, by omega⟩)
      + ∑ k : Fin 128, f ⟨256 + k.val, by omega⟩ := by
  rw [sum_three 128 f]
  refine congrArg₂ (· + ·) (congrArg₂ (· + ·) ?_ ?_) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

/-- The three node arrays laid side by side along the columns: columns 0 … 127 are the first array's … -/
theorem cat_0 (x0 x1 x2 : Gine.Mat 50000 128) (p : Fin 50000) (k : Fin 128) (h : 0 + k.val < 384) :
    concatenate S50000x384 1 [⟨S50000x128, x0⟩, ⟨S50000x128, x1⟩, ⟨S50000x128, x2⟩] concatenates_S50000x128_S50000x128_S50000x128_S50000x384_d1 (ix2 p (⟨0 + k.val, h⟩ : Fin 384))
      = x0 (ix2 p k) :=
  concatenate_apply_piece (1 : Fin S50000x384.rank) [⟨S50000x128, x0⟩, ⟨S50000x128, x1⟩, ⟨S50000x128, x2⟩] concatenates_S50000x128_S50000x128_S50000x128_S50000x384_d1
    (ix2 p (⟨0 + k.val, h⟩ : Fin 384)) 0 (show (0 : Nat) < 3 by omega) S50000x128 x0 rfl rfl 0 rfl (ix2 p k)
    (fun b hb => match b with
      | ⟨0, _⟩ => rfl
      | ⟨1, _⟩ => absurd rfl hb)
    rfl

/-- … columns 128 … 255 the second's … -/
theorem cat_1 (x0 x1 x2 : Gine.Mat 50000 128) (p : Fin 50000) (k : Fin 128) (h : 128 + k.val < 384) :
    concatenate S50000x384 1 [⟨S50000x128, x0⟩, ⟨S50000x128, x1⟩, ⟨S50000x128, x2⟩] concatenates_S50000x128_S50000x128_S50000x128_S50000x384_d1 (ix2 p (⟨128 + k.val, h⟩ : Fin 384))
      = x1 (ix2 p k) :=
  concatenate_apply_piece (1 : Fin S50000x384.rank) [⟨S50000x128, x0⟩, ⟨S50000x128, x1⟩, ⟨S50000x128, x2⟩] concatenates_S50000x128_S50000x128_S50000x128_S50000x384_d1
    (ix2 p (⟨128 + k.val, h⟩ : Fin 384)) 1 (show (1 : Nat) < 3 by omega) S50000x128 x1 rfl rfl 128 rfl (ix2 p k)
    (fun b hb => match b with
      | ⟨0, _⟩ => rfl
      | ⟨1, _⟩ => absurd rfl hb)
    rfl

/-- … and columns 256 … 383 the third's. -/
theorem cat_2 (x0 x1 x2 : Gine.Mat 50000 128) (p : Fin 50000) (k : Fin 128) (h : 256 + k.val < 384) :
    concatenate S50000x384 1 [⟨S50000x128, x0⟩, ⟨S50000x128, x1⟩, ⟨S50000x128, x2⟩] concatenates_S50000x128_S50000x128_S50000x128_S50000x384_d1 (ix2 p (⟨256 + k.val, h⟩ : Fin 384))
      = x2 (ix2 p k) :=
  concatenate_apply_piece (1 : Fin S50000x384.rank) [⟨S50000x128, x0⟩, ⟨S50000x128, x1⟩, ⟨S50000x128, x2⟩] concatenates_S50000x128_S50000x128_S50000x128_S50000x384_d1
    (ix2 p (⟨256 + k.val, h⟩ : Fin 384)) 2 (show (2 : Nat) < 3 by omega) S50000x128 x2 rfl rfl 256 rfl (ix2 p k)
    (fun b hb => match b with
      | ⟨0, _⟩ => rfl
      | ⟨1, _⟩ => absurd rfl hb)
    rfl

/-- The closing linear map: the product against the three layer outputs side by side is the sum of the three products
    against the weight's three runs of rows. -/
theorem jk_N (x0 x1 x2 : Gine.Mat 50000 128) (Wc : Gine.Mat 384 128) (bc : Gine.Row 128) :
    (maximumf (addf (Host.dotGeneral dot_S50000x384_S384x128_S50000x128_1_0_0_1_n_n none
          (concatenate S50000x384 1 [⟨S50000x128, x0⟩, ⟨S50000x128, x1⟩, ⟨S50000x128, x2⟩] concatenates_S50000x128_S50000x128_S50000x128_S50000x384_d1) Wc)
        (broadcastInDim S50000x128 ![0, 1] bcast_S1x128_S50000x128_0_1 (broadcastInDim S1x128 ![1] bcast_S128_S1x128_1 bc)))
      (broadcastInDim S50000x128 ![] bcast_S_S50000x128 (constant S_ .f32 0x00000000#32)) : Gine.Mat 50000 128)
      = Gine.jk x0 x1 x2 Wc bc := by
  funext i
  obtain ⟨p, q, rfl⟩ : ∃ p q, i = ix2 p q := ⟨i 0, i 1, eq_ix2 i⟩
  rw [maximumf_apply, addf_apply, zeroN_apply, dot384_apply, bias_apply]
  rw [sum_384 (fun j => concatenate S50000x384 1 [⟨S50000x128, x0⟩, ⟨S50000x128, x1⟩, ⟨S50000x128, x2⟩] concatenates_S50000x128_S50000x128_S50000x128_S50000x384_d1 (ix2 p j) * Wc (ix2 j q))]
  simp only [cat_0, cat_1, cat_2]
  rfl

section Term
variable {F : FTy → Type} [FloatOps F]

set_option maxRecDepth 8192 in
/-- The reference's result as one term of its seventeen arguments. -/
def refTerm (x0 : (⟨S50000x128, .f32⟩ : BufTy).Contents (Elt F)) (x1 : (⟨S2x600000, .i32⟩ : BufTy).Contents (Elt F)) (x2 : (⟨S600000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S384x128, .f32⟩ : BufTy).Contents (Elt F)) (x16 : (⟨S128, .f32⟩ : BufTy).Contents (Elt F)) : (⟨S50000x128, .f32⟩ : BufTy).Contents (Elt F) :=
  maximumf (addf (Host.dotGeneral dot_S50000x384_S384x128_S50000x128_1_0_0_1_n_n none (concatenate S50000x384 1 [⟨S50000x128, (maximumf (addf (Host.dotGeneral dot_S50000x128_S128x128_S50000x128_1_0_0_1_n_n none (maximumf (addf (Host.dotGeneral dot_S50000x128_S128x128_S50000x128_1_0_0_1_n_n none (addf x0 (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x3) (broadcastInDim S50000x128 ![0, 1] bcast_S1x128_S50000x128_0_1 (broadcastInDim S1x128 ![1] bcast_S128_S1x128_1 x4))) (broadcastInDim S50000x128 ![] bcast_S_S50000x128 (constant S_ .f32 0x00000000#32))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32)))⟩, ⟨S50000x128, (maximumf (addf (Host.dotGeneral dot_S50000x128_S128x128_S50000x128_1_0_0_1_n_n none (maximumf (addf (Host.dotGeneral dot_S50000x128_S128x128_S50000x128_1_0_0_1_n_n none (addf (maximumf (addf (Host.dotGeneral dot_S50000x128_S128x128_S50000x128_1_0_0_1_n_n none (maximumf (addf (Host.dotGeneral dot_S50000x128_S128x128_S50000x128_1_0_0_1_n_n none (addf x0 (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x3) (broadcastInDim S50000x128 ![0, 1] bcast_S1x128_S50000x128_0_1 (broadcastInDim S1x128 ![1] bcast_S128_S1x128_1 x4))) (broadcastInDim S50000x128 ![] bcast_S_S50000x128 (constant S_ .f32 0x00000000#32))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32))) (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 (maximumf (addf (Host.dotGeneral dot_S50000x128_S128x128_S50000x128_1_0_0_1_n_n none (maximumf (addf (Host.dotGeneral dot_S50000x128_S128x128_S50000x128_1_0_0_1_n_n none (addf x0 (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x3) (broadcastInDim S50000x128 ![0, 1] bcast_S1x128_S50000x128_0_1 (broadcastInDim S1x128 ![1] bcast_S128_S1x128_1 x4))) (broadcastInDim S50000x128 ![] bcast_S_S50000x128 (constant S_ .f32 0x00000000#32))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32))) (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x7) (broadcastInDim S50000x128 ![0, 1] bcast_S1x128_S50000x128_0_1 (broadcastInDim S1x128 ![1] bcast_S128_S1x128_1 x8))) (broadcastInDim S50000x128 ![] bcast_S_S50000x128 (constant S_ .f32 0x00000000#32))) x9) (broadcastInDim S50000x128 ![0, 1] bcast_S1x128_S50000x128_0_1 (broadcastInDim S1x128 ![1] bcast_S128_S1x128_1 x10))) (broadcastInDim S50000x128 ![] bcast_S_S50000x128 (constant S_ .f32 0x00000000#32)))⟩, ⟨S50000x128, (maximumf (addf (Host.dotGeneral dot_S50000x128_S128x128_S50000x128_1_0_0_1_n_n none (maximumf (addf (Host.dotGeneral dot_S50000x128_S128x128_S50000x128_1_0_0_1_n_n none (addf (maximumf (addf (Host.dotGeneral dot_S50000x128_S128x128_S50000x128_1_0_0_1_n_n none (maximumf (addf (Host.dotGeneral dot_S50000x128_S128x128_S50000x128_1_0_0_1_n_n none (addf (maximumf (addf (Host.dotGeneral dot_S50000x128_S128x128_S50000x128_1_0_0_1_n_n none (maximumf (addf (Host.dotGeneral dot_S50000x128_S128x128_S50000x128_1_0_0_1_n_n none (addf x0 (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x3) (broadcastInDim S50000x128 ![0, 1] bcast_S1x128_S50000x128_0_1 (broadcastInDim S1x128 ![1] bcast_S128_S1x128_1 x4))) (broadcastInDim S50000x128 ![] bcast_S_S50000x128 (constant S_ .f32 0x00000000#32))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32))) (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 (maximumf (addf (Host.dotGeneral dot_S50000x128_S128x128_S50000x128_1_0_0_1_n_n none (maximumf (addf (Host.dotGeneral dot_S50000x128_S128x128_S50000x128_1_0_0_1_n_n none (addf x0 (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x3) (broadcastInDim S50000x128 ![0, 1] bcast_S1x128_S50000x128_0_1 (broadcastInDim S1x128 ![1] bcast_S128_S1x128_1 x4))) (broadcastInDim S50000x128 ![] bcast_S_S50000x128 (constant S_ .f32 0x00000000#32))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32))) (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x7) (broadcastInDim S50000x128 ![0, 1] bcast_S1x128_S50000x128_0_1 (broadcastInDim S1x128 ![1] bcast_S128_S1x128_1 x8))) (broadcastInDim S50000x128 ![] bcast_S_S50000x128 (constant S_ .f32 0x00000000#32))) x9) (broadcastInDim S50000x128 ![0, 1] bcast_S1x128_S50000x128_0_1 (broadcastInDim S1x128 ![1] bcast_S128_S1x128_1 x10))) (broadcastInDim S50000x128 ![] bcast_S_S50000x128 (constant S_ .f32 0x00000000#32))) (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 (maximumf (addf (Host.dotGeneral dot_S50000x128_S128x128_S50000x128_1_0_0_1_n_n none (maximumf (addf (Host.dotGeneral dot_S50000x128_S128x128_S50000x128_1_0_0_1_n_n none (addf (maximumf (addf (Host.dotGeneral dot_S50000x128_S128x128_S50000x128_1_0_0_1_n_n none (maximumf (addf (Host.dotGeneral dot_S50000x128_S128x128_S50000x128_1_0_0_1_n_n none (addf x0 (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x3) (broadcastInDim S50000x128 ![0, 1] bcast_S1x128_S50000x128_0_1 (broadcastInDim S1x128 ![1] bcast_S128_S1x128_1 x4))) (broadcastInDim S50000x128 ![] bcast_S_S50000x128 (constant S_ .f32 0x00000000#32))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32))) (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 (maximumf (addf (Host.dotGeneral dot_S50000x128_S128x128_S50000x128_1_0_0_1_n_n none (maximumf (addf (Host.dotGeneral dot_S50000x128_S128x128_S50000x128_1_0_0_1_n_n none (addf x0 (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (maximumf (addf (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x3) (broadcastInDim S50000x128 ![0, 1] bcast_S1x128_S50000x128_0_1 (broadcastInDim S1x128 ![1] bcast_S128_S1x128_1 x4))) (broadcastInDim S50000x128 ![] bcast_S_S50000x128 (constant S_ .f32 0x00000000#32))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32))) (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x7) (broadcastInDim S50000x128 ![0, 1] bcast_S1x128_S50000x128_0_1 (broadcastInDim S1x128 ![1] bcast_S128_S1x128_1 x8))) (broadcastInDim S50000x128 ![] bcast_S_S50000x128 (constant S_ .f32 0x00000000#32))) x9) (broadcastInDim S50000x128 ![0, 1] bcast_S1x128_S50000x128_0_1 (broadcastInDim S1x128 ![1] bcast_S128_S1x128_1 x10))) (broadcastInDim S50000x128 ![] bcast_S_S50000x128 (constant S_ .f32 0x00000000#32))) (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000)))) x2) (broadcastInDim S600000x128 ![] bcast_S_S600000x128 (constant S_ .f32 0x00000000#32))))) x11) (broadcastInDim S50000x128 ![0, 1] bcast_S1x128_S50000x128_0_1 (broadcastInDim S1x128 ![1] bcast_S128_S1x128_1 x12))) (broadcastInDim S50000x128 ![] bcast_S_S50000x128 (constant S_ .f32 0x00000000#32))) x13) (broadcastInDim S50000x128 ![0, 1] bcast_S1x128_S50000x128_0_1 (broadcastInDim S1x128 ![1] bcast_S128_S1x128_1 x14))) (broadcastInDim S50000x128 ![] bcast_S_S50000x128 (constant S_ .f32 0x00000000#32)))⟩] concatenates_S50000x128_S50000x128_S50000x128_S50000x384_d1) x15) (broadcastInDim S50000x128 ![0, 1] bcast_S1x128_S50000x128_0_1 (broadcastInDim S1x128 ![1] bcast_S128_S1x128_1 x16))) (broadcastInDim S50000x128 ![] bcast_S_S50000x128 (constant S_ .f32 0x00000000#32))

end Term

set_option maxRecDepth 8192 in
/-- The reference's result term is the network of its arguments: the clamped sums, the perceptrons' two linear maps and
    the closing linear map are recognised from the inside out; the two index maps are left as they are. -/
theorem network (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S384x128, .f32⟩ : BufTy).Contents (Elt Ideal)) (x16 : (⟨S128, .f32⟩ : BufTy).Contents (Elt Ideal)) :
    refTerm (F := Ideal) x0 x1 x2 x3 x4 x5 x6 x7 x8 x9 x10 x11 x12 x13 x14 x15 x16
      = Gine.out (gath x1) (scat x1) x0 x2 x3 x4 x5 x6 x7 x8 x9 x10 x11 x12 x13 x14 x15 x16 := by
  unfold refTerm
  rw [relu_add_E, relu_add_E, relu_add_E]
  rw [lin_N, lin_N, lin_N, lin_N, lin_N, lin_N]
  rw [jk_N]
  rw [add_N, add_N, add_N]
  rfl

end Cert.ReferenceIdeal.RefVal

end
-- ==== Proof.RefBridge.lean ====
import proofs.«102026_j58007828300389_1_alg».proof.Proof.Gen.ReferenceIdeal.Run
import proofs.«102026_j58007828300389_1_alg».proof.Proof.Spec
import proofs.«102026_j58007828300389_1_alg».proof.Proof.ROps
import proofs.«102026_j58007828300389_1_alg».proof.Proof.RefOps
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Value Idealize.ShloMosaic Idealize.ShloMosaic.TcCoe Idealize.SL.Sem Idealize.ShloMosaic.ValueIdx

/-- The reference run's result term is the network of the launch contents of the arguments. -/
theorem result_eq (m : (ℓ : Loc nD τ sig) → Buf (Elt Ideal) ℓ) (c : Dev nD) :
    res_main_v78 (F := Ideal) m c
      = Gine.out (gath (m ((c.tc : Thread nD τ).loc main_arg1))) (scat (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) :=
  -- the result term is, letter for letter, the seventeen-argument term whose value the network theorem gives
  network _ _ _ _ _ _ _ _ _ _ _ _ _ _ _ _ _

end Cert.ReferenceIdeal.RefVal

end
-- ==== Proof.lean ====
/-
  The certificate's claim for a three-layer graph network with edge features: each layer gathers node rows at the
  edges' sources, adds the edge features and clamps at zero, sums the edge rows into their target nodes, adds the
  node features, and applies a two-layer perceptron clamped at zero; the three layers' outputs then meet one more
  linear map whose weight has three row blocks, clamped at zero.

  The kernel program computes the clamp-and-add step, the perceptron and the closing map in tiled kernel regions
  (row blocks of 6000 edges or 5000 nodes; the products rounded to a narrower float format on the way in, which is the
  identity on the extended reals; the closing map as three products summed) and leaves the gather and the
  scatter-sum to the host; the reference computes everything on the host, the closing map as ONE product with the
  three outputs joined side by side.  On the extended reals both are the function `Gine.out` of the arguments:
  a tile's rows are rows of the whole array, a product into a zero accumulator is the textbook sum, and the sum over
  the 384 joined columns is the three sums over 128 columns added — a regrouping of a finite sum, which needs
  only that addition is commutative and associative, so the precondition (finite inputs) is never opened.  The gather
  and the scatter-sum are spelled identically by both programs and are carried as two opaque maps.

  The three frames: the kernel programs' are the run of @main's segments (host stretches and kernel regions); the
  reference's is its run with the result dropped.  The idealization rewrote nothing, so it is preserved trivially.
-/
import proofs.«102026_j58007828300389_1_alg».proof.Defs
import proofs.«102026_j58007828300389_1_alg».proof.Proof.Gen.Kernel
import proofs.«102026_j58007828300389_1_alg».proof.Proof.KernelFrameP
import proofs.«102026_j58007828300389_1_alg».proof.Proof.Gen.KernelIdeal
import proofs.«102026_j58007828300389_1_alg».proof.Proof.KernelIdealFrameP
import proofs.«102026_j58007828300389_1_alg».proof.Proof.KRun
import proofs.«102026_j58007828300389_1_alg».proof.Proof.KChain
import proofs.«102026_j58007828300389_1_alg».proof.Proof.Gen.ReferenceIdeal
import proofs.«102026_j58007828300389_1_alg».proof.Proof.Gen.ReferenceIdeal.Run
import proofs.«102026_j58007828300389_1_alg».proof.Proof.RefBridge
import proofs.«102026_j58007828300389_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program runs and keeps its arguments, at the word level. -/
theorem frame_k : Cert.frame_Kernel := fun m ρ _ => Cert.Kernel.Gen.frame m ρ

/-- The same program read on the extended reals runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs read node rows at the edges' sources by the same map. -/
theorem gath_eq (ei) : Cert.ReferenceIdeal.RefVal.gath ei = Cert.KernelIdeal.Val.gath ei := rfl

/-- Both programs sum edge rows into the edges' targets by the same map. -/
theorem scat_eq (ei) : Cert.ReferenceIdeal.RefVal.scat ei = Cert.KernelIdeal.Val.scat ei := rfl

/-- The network is a function of its arguments: equal arguments, equal values. -/
theorem out_congr {N E : Nat} {g g' : Gine.Mat N 128 → Gine.Mat E 128} {s s' : Gine.Mat E 128 → Gine.Mat N 128}
    {x x' : Gine.Mat N 128} {ea ea' : Gine.Mat E 128} {W1a W1a' : Gine.Mat 128 128} {b1a b1a' : Gine.Row 128} {W2a W2a' : Gine.Mat 128 128} {b2a b2a' : Gine.Row 128} {W1b W1b' : Gine.Mat 128 128} {b1b b1b' : Gine.Row 128} {W2b W2b' : Gine.Mat 128 128} {b2b b2b' : Gine.Row 128} {W1c W1c' : Gine.Mat 128 128} {b1c b1c' : Gine.Row 128} {W2c W2c' : Gine.Mat 128 128} {b2c b2c' : Gine.Row 128} {Wc Wc' : Gine.Mat 384 128} {bc bc' : Gine.Row 128}
    (hg : g = g') (hs : s = s') (hx : x = x') (hea : ea = ea') (hW1a : W1a = W1a') (hb1a : b1a = b1a') (hW2a : W2a = W2a') (hb2a : b2a = b2a') (hW1b : W1b = W1b') (hb1b : b1b = b1b') (hW2b : W2b = W2b') (hb2b : b2b = b2b') (hW1c : W1c = W1c') (hb1c : b1c = b1c') (hW2c : W2c = W2c') (hb2c : b2c = b2c') (hWc : Wc = Wc') (hbc : bc = bc') :
    Gine.out g s x ea W1a b1a W2a b2a W1b b1b W2b b2b W1c b1c W2c b2c Wc bc = Gine.out g' s' x' ea' W1a' b1a' W2a' b2a' W1b' b1b' W2b' b2b' W1c' b1c' W2c' b2c' Wc' bc' := by
  subst hg hs hx hea hW1a hb1a hW2a hb2a hW1b hb1b hW2b hb2b hW1c hb1c hW2c hb2c hWc hbc
  rfl

/-- From memories that agree on the arguments both programs end with the network's value of those arguments. -/
theorem algebraic : Cert.algebraic_KernelIdeal_ReferenceIdeal := by
  intro m ρ m' ρ' _ hagree
  refine ⟨fun c => Cert.KernelIdeal.Gen.W14 (F := Ideal) m ρ c (Proc.devRef .tc Cert.KernelIdeal.main_v50),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  show Cert.ReferenceIdeal.Value.res_main_v78 (F := Ideal) m' c
    = Cert.KernelIdeal.Gen.W14 (F := Ideal) m ρ c (Proc.devRef .tc Cert.KernelIdeal.main_v50)
  exact (Cert.ReferenceIdeal.RefVal.result_eq m' c).trans
    ((out_congr ((congrArg Cert.ReferenceIdeal.RefVal.gath h1).trans (gath_eq _)) ((congrArg Cert.ReferenceIdeal.RefVal.scat h1).trans (scat_eq _))
      h0 h2 h3 h4 h5 h6 h7 h8 h9 h10 h11 h12 h13 h14 h15 h16).trans (Cert.KernelIdeal.Val.result_eq m ρ c).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
